-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S16384x4096 : Shape := ⟨2, ![16384, 4096]⟩
abbrev S4096 : Shape := ⟨1, ![4096]⟩
abbrev S384x1024 : Shape := ⟨2, ![384, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S4096 : S_.BroadcastsInDim S4096 (![] : Fin 0 → Fin S4096.rank)
  reducesTo_S4096_S_d0 : S4096.ReducesTo [0] S_
  bcast_S_S384x1024 : S_.BroadcastsInDim S384x1024 (![] : Fin 0 → Fin S384x1024.rank)
  reducesTo_S384x1024_S_d0_1 : S384x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256 .f32) (main_arg12 : FVec F S256x1 .f32) (main_arg13 : FVec F S1 .f32) (main_v48 : IVec S_ 1) (main_v49 : FVec F S512x256 .f32) (main_v50 : FVec F S512x256 .f32) : IVec S_ 1 :=
  let main_v51 : IVec S512x256 1 := cmpf .olt main_v49 main_v50
  let main_c_19 : IVec S_ 1 := constantI S_ 1 1#1
  let main_v52 : IVec S_ 1 := (fun x v => Host.reduce IntOp.andi x v reducesTo_S512x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x1 .f32 := Host.absf main_arg12
  let main_cst_22 : FVec F S_ .f32 := constant S_ .f32 0x7F800000#32
  let main_v60 : FVec F S256x1 .f32 := broadcastInDim S256x1 ![] bcast_S_S256x1 main_cst_22
  let main_v61 : IVec S256x1 1 := cmpf .olt main_v59 main_v60
  let main_c_23 : IVec S_ 1 := constantI S_ 1 1#1
  let main_v62 : IVec S_ 1 := (fun x v => Host.reduce IntOp.andi x v reducesTo_S256x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S1024 .f32) (main_arg8 : FVec F S1024x512 .f32) (main_arg9 : FVec F S512 .f32) (main_arg10 : FVec F S512x256 .f32) (main_arg11 : FVec F S256 .f32) (main_arg12 : FVec F S256x1 .f32) (main_arg13 : FVec F S1 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x512 .f32 := Host.absf main_arg8
  let main_cst_14 : FVec F S_ .f32 := constant S_ .f32 0x7F800000#32
  let main_v40 : FVec F S1024x512 .f32 := broadcastInDim S1024x512 ![] bcast_S_S1024x512 main_cst_14
  let main_v41 : IVec S1024x512 1 := cmpf .olt main_v39 main_v40
  let main_c_15 : IVec S_ 1 := constantI S_ 1 1#1
  let main_v42 : IVec S_ 1 := (fun x v => Host.reduce IntOp.andi x v reducesTo_S1024x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x256 .f32 := Host.absf main_arg10
  let main_cst_18 : FVec F S_ .f32 := constant S_ .f32 0x7F800000#32
  let main_v50 : FVec F S512x256 .f32 := broadcastInDim S512x256 ![] bcast_S_S512x256 main_cst_18
  fn_part3 (F := F) main_arg11 main_arg12 main_arg13 main_v48 main_v49 main_v50

def fn_part1 {F : FTy → Type} [FloatOps F] (main_arg4 : FVec F S384x1024 .f32) (main_arg5 : FVec F S1024 .f32) (main_arg6 : FVec F S1024x1024 .f32) (main_arg7 : FVec F S1024 .f32) (main_arg8 : FVec F S1024x512 .f32) (main_arg9 : FVec F S512 .f32) (main_arg10 : FVec F S512x256 .f32) (main_arg11 : FVec F S256 .f32) (main_arg12 : FVec F S256x1 .f32) (main_arg13 : FVec F S1 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S384x1024 .f32 := Host.absf main_arg4
  let main_cst_6 : FVec F S_ .f32 := constant S_ .f32 0x7F800000#32
  let main_v20 : FVec F S384x1024 .f32 := broadcastInDim S384x1024 ![] bcast_S_S384x1024 main_cst_6
  let main_v21 : IVec S384x1024 1 := cmpf .olt main_v19 main_v20
  let main_c_7 : IVec S_ 1 := constantI S_ 1 1#1
  let main_v22 : IVec S_ 1 := (fun x v => Host.reduce IntOp.andi x v reducesTo_S384x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x128 .f32) (main_arg1 : FVec F S16384x4096 .f32) (main_arg2 : FVec F S16384x4096 .f32) (main_arg3 : FVec F S4096 .f32) (main_arg4 : FVec F S384x1024 .f32) (main_arg5 : FVec F S1024 .f32) (main_arg6 : FVec F S1024x1024 .f32) (main_arg7 : FVec F S1024 .f32) (main_arg8 : FVec F S1024x512 .f32) (main_arg9 : FVec F S512 .f32) (main_arg10 : FVec F S512x256 .f32) (main_arg11 : FVec F S256 .f32) (main_arg12 : FVec F S256x1 .f32) (main_arg13 : FVec F S1 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384x4096 .f32 := Host.absf main_arg2
  let main_cst_2 : FVec F S_ .f32 := constant S_ .f32 0x7F800000#32
  let main_v10 : FVec F S16384x4096 .f32 := broadcastInDim S16384x4096 ![] bcast_S_S16384x4096 main_cst_2
  let main_v11 : IVec S16384x4096 1 := cmpf .olt main_v9 main_v10
  let main_c_3 : IVec S_ 1 := constantI S_ 1 1#1
  let main_v12 : IVec S_ 1 := (fun x v => Host.reduce IntOp.andi x v reducesTo_S16384x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x128 : Shape := ⟨2, ![4096, 128]⟩
abbrev S16384x4096 : Shape := ⟨2, ![16384, 4096]⟩
abbrev S4096 : Shape := ⟨1, ![4096]⟩
abbrev S384x1024 : Shape := ⟨2, ![384, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S4096x1 : Shape := ⟨2, ![4096, 1]⟩
abbrev S256x4096 : Shape := ⟨2, ![256, 4096]⟩
abbrev S256x128 : Shape := ⟨2, ![256, 128]⟩
abbrev S1x1024 : Shape := ⟨2, ![1, 1024]⟩
abbrev S1x512 : Shape := ⟨2, ![1, 512]⟩
abbrev S1x256 : Shape := ⟨2, ![1, 256]⟩
abbrev S1x1 : Shape := ⟨2, ![1, 1]⟩
abbrev S512x128 : Shape := ⟨2, ![512, 128]⟩
abbrev S512x1 : Shape := ⟨2, ![512, 1]⟩
abbrev S128x1024 : Shape := ⟨2, ![128, 1024]⟩
abbrev S512x1024 : Shape := ⟨2, ![512, 1024]⟩
abbrev S512x512 : Shape := ⟨2, ![512, 512]⟩

abbrev nBuf : Space → Nat
  | .hbm => 25
  | .vmem => 25
  | .smem => 0
  | _ => 0

abbrev bufTy : (tb : Table) → Fin (tcTables nBuf tb) → BufTy
  | .hbm, ⟨0, _⟩ => ⟨S4096x128, .f32⟩
  | .hbm, ⟨1, _⟩ => ⟨S16384x4096, .f32⟩
  | .hbm, ⟨2, _⟩ => ⟨S16384x4096, .f32⟩
  | .hbm, ⟨3, _⟩ => ⟨S4096, .f32⟩
  | .hbm, ⟨4, _⟩ => ⟨S384x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x512, .f32⟩
  | .hbm, ⟨9, _⟩ => ⟨S512, .f32⟩
  | .hbm, ⟨10, _⟩ => ⟨S512x256, .f32⟩
  | .hbm, ⟨11, _⟩ => ⟨S256, .f32⟩
  | .hbm, ⟨12, _⟩ => ⟨S256x1, .f32⟩
  | .hbm, ⟨13, _⟩ => ⟨S1, .f32⟩
  | .hbm, ⟨14, _⟩ => ⟨S4096x1, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S1x1024, .f32⟩
  | .hbm, ⟨20, _⟩ => ⟨S1x1024, .f32⟩
  | .hbm, ⟨21, _⟩ => ⟨S1x512, .f32⟩
  | .hbm, ⟨22, _⟩ => ⟨S1x256, .f32⟩
  | .hbm, ⟨23, _⟩ => ⟨S1x1, .f32⟩
  | .hbm, ⟨24, _⟩ => ⟨S4096x1, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S384x1024, .f32⟩
  | .local _ .vmem, ⟨14, _⟩ => ⟨S1x1024, .f32⟩
  | .local _ .vmem, ⟨15, _⟩ => ⟨S1024x1024, .f32⟩
  | .local _ .vmem, ⟨16, _⟩ => ⟨S1x1024, .f32⟩
  | .local _ .vmem, ⟨17, _⟩ => ⟨S1024x512, .f32⟩
  | .local _ .vmem, ⟨18, _⟩ => ⟨S1x512, .f32⟩
  | .local _ .vmem, ⟨19, _⟩ => ⟨S512x256, .f32⟩
  | .local _ .vmem, ⟨20, _⟩ => ⟨S1x256, .f32⟩
  | .local _ .vmem, ⟨21, _⟩ => ⟨S256x1, .f32⟩
  | .local _ .vmem, ⟨22, _⟩ => ⟨S1x1, .f32⟩
  | .local _ .vmem, ⟨23, _⟩ => ⟨S512x1, .f32⟩
  | .local _ .vmem, ⟨24, _⟩ => ⟨S512x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem12_0 : DmaSem sig := 22
abbrev cc1_sem13_0 : DmaSem sig := 23
abbrev cc1_sem13_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S384x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S512x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  inb_S4096x128_S4096x128_0_0 : ∀ a, (![0, 0] : Fin 2 → Nat) a + S4096x128.size a ≤ S4096x128.size a
  h_S4096x128 : 0 < S4096x128.numel
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  shapeCasts_S4096x128_S4096x128 : S4096x128.ShapeCasts S4096x128
  shapeCasts_S1024_S1x1024 : S1024.ShapeCasts S1x1024
  shapeCasts_S512_S1x512 : S512.ShapeCasts S1x512
  shapeCasts_S256_S1x256 : S256.ShapeCasts S1x256
  shapeCasts_S1_S1x1 : S1.ShapeCasts S1x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S384x1024_S128x1024_0_0 : ∀ a, (![0, 0] : Fin 2 → Nat) a + S128x1024.size a ≤ S384x1024.size a
  h_S128x1024 : 0 < S128x1024.numel
  inb_S384x1024_S128x1024_128_0 : ∀ a, (![128, 0] : Fin 2 → Nat) a + S128x1024.size a ≤ S384x1024.size a
  inb_S384x1024_S128x1024_256_0 : ∀ a, (![256, 0] : Fin 2 → Nat) a + S128x1024.size a ≤ S384x1024.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S256x4096_S4096x128_S256x128_1_0_0_1_n_n_wf : DotDims.WF S256x4096 S4096x128 S256x128 [1] [0] [0] [1] [] []
  dot_S256x4096_S256x128_S4096x128_0_0_1_1_n_n_wf : DotDims.WF S256x4096 S256x128 S4096x128 [0] [0] [1] [1] [] []
  dot_S512x128_S128x1024_S512x1024_1_0_0_1_n_n_wf : DotDims.WF S512x128 S128x1024 S512x1024 [1] [0] [0] [1] [] []
  dot_S512x1024_S1024x1024_S512x1024_1_0_0_1_n_n_wf : DotDims.WF S512x1024 S1024x1024 S512x1024 [1] [0] [0] [1] [] []
  dot_S512x1024_S1024x512_S512x512_1_0_0_1_n_n_wf : DotDims.WF S512x1024 S1024x512 S512x512 [1] [0] [0] [1] [] []
  dot_S512x512_S512x256_S512x256_1_0_0_1_n_n_wf : DotDims.WF S512x512 S512x256 S512x256 [1] [0] [0] [1] [] []
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x128.size a
  hwx0_2 : ∀ i : grid0.Coords, EltTy.bits .f32 = 32 ∨ (Rect.block (s := S4096x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x128.size a
  hwx0_3 : ∀ i : grid0.Coords, EltTy.bits .f32 = 32 ∨ (Rect.block (s := S4096x128) S4096x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S4096x128.size a
  hwx0_4 : ∀ i : grid0.Coords, EltTy.bits .f32 = 32 ∨ (Rect.block (s := S4096x128) S4096x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S4096x128.size a
  hwx1_0 : ∀ i : grid1.Coords, EltTy.bits .f32 = 32 ∨ (Rect.block (s := S4096x128) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S4096x128.size a
  hwx1_1 : ∀ i : grid1.Coords, EltTy.bits .f32 = 32 ∨ (Rect.block (s := S4096x128) S512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S4096x128.size a
  hwx1_2 : ∀ i : grid1.Coords, EltTy.bits .f32 = 32 ∨ (Rect.block (s := S4096x128) S512x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384x1024.size a ≤ S384x1024.size a
  hwx1_3 : ∀ i : grid1.Coords, EltTy.bits .f32 = 32 ∨ (Rect.block (s := S384x1024) S384x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .f32 = 32 ∨ (Rect.block (s := S1024x1024) S1024x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x512.size a ≤ S1024x512.size a
  hwx1_7 : ∀ i : grid1.Coords, EltTy.bits .f32 = 32 ∨ (Rect.block (s := S1024x512) S1024x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x512.size a ≤ S1x512.size a
  hwx1_8 : ∀ i : grid1.Coords, EltTy.bits .f32 = 32 ∨ (Rect.block (s := S1x512) S1x512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S512x256.size a ≤ S512x256.size a
  hwx1_9 : ∀ i : grid1.Coords, EltTy.bits .f32 = 32 ∨ (Rect.block (s := S512x256) S512x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S256x1.size a ≤ S256x1.size a
  hwx1_11 : ∀ i : grid1.Coords, EltTy.bits .f32 = 32 ∨ (Rect.block (s := S256x1) S256x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x1.size a ≤ S1x1.size a
  hwx1_12 : ∀ i : grid1.Coords, EltTy.bits .f32 = 32 ∨ (Rect.block (s := S1x1) S1x1.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S512x1.size a ≤ S4096x1.size a
  hwx1_13 : ∀ i : grid1.Coords, EltTy.bits .f32 = 32 ∨ (Rect.block (s := S4096x1) S512x1.size (cc1_transform_13 i) (hinb1_13 i)).WholeWords (EltTy.packing .f32)

variable [Facts₀]

def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x4096_S256x128_S4096x128_0_0_1_1_n_n : DotDims S256x4096 S256x128 S4096x128 where
  lhsContracting := [0]
  rhsContracting := [0]
  lhsNonContracting := [1]
  rhsNonContracting := [1]
  lhsBatch := []
  rhsBatch := []
  wf := dot_S256x4096_S256x128_S4096x128_0_0_1_1_n_n_wf
def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S4096x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S4096x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3_0) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_1) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S384x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S1024x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v6) S1x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S512x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v7) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg12) S256x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v8) S1x1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v9) S512x1.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S4096x128 : Shape := ⟨2, ![4096, 128]⟩
abbrev S16384x4096 : Shape := ⟨2, ![16384, 4096]⟩
abbrev S4096 : Shape := ⟨1, ![4096]⟩
abbrev S384x1024 : Shape := ⟨2, ![384, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S4096x1 : Shape := ⟨2, ![4096, 1]⟩
abbrev S4096x16384 : Shape := ⟨2, ![4096, 16384]⟩
abbrev S16384x128 : Shape := ⟨2, ![16384, 128]⟩
abbrev S4096x384 : Shape := ⟨2, ![4096, 384]⟩
abbrev S4096x1024 : Shape := ⟨2, ![4096, 1024]⟩
abbrev S1x1024 : Shape := ⟨2, ![1, 1024]⟩
abbrev S4096x512 : Shape := ⟨2, ![4096, 512]⟩
abbrev S1x512 : Shape := ⟨2, ![1, 512]⟩
abbrev S4096x256 : Shape := ⟨2, ![4096, 256]⟩
abbrev S1x256 : Shape := ⟨2, ![1, 256]⟩
abbrev S1x1 : Shape := ⟨2, ![1, 1]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S16384x4096, .f32⟩
  | .hbm, ⟨2, _⟩ => ⟨S16384x4096, .f32⟩
  | .hbm, ⟨3, _⟩ => ⟨S4096, .f32⟩
  | .hbm, ⟨4, _⟩ => ⟨S384x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x512, .f32⟩
  | .hbm, ⟨9, _⟩ => ⟨S512, .f32⟩
  | .hbm, ⟨10, _⟩ => ⟨S512x256, .f32⟩
  | .hbm, ⟨11, _⟩ => ⟨S256, .f32⟩
  | .hbm, ⟨12, _⟩ => ⟨S256x1, .f32⟩
  | .hbm, ⟨13, _⟩ => ⟨S1, .f32⟩
  | .hbm, ⟨14, _⟩ => ⟨S4096x1, .f32⟩
  | .hbm, ⟨15, _⟩ => ⟨S4096x128, .f32⟩
  | .hbm, ⟨16, _⟩ => ⟨S4096x128, .f32⟩
  | .hbm, ⟨17, _⟩ => ⟨S4096x16384, .f32⟩
  | .hbm, ⟨18, _⟩ => ⟨S16384x128, .f32⟩
  | .hbm, ⟨19, _⟩ => ⟨S4096x128, .f32⟩
  | .hbm, ⟨20, _⟩ => ⟨S4096x16384, .f32⟩
  | .hbm, ⟨21, _⟩ => ⟨S16384x128, .f32⟩
  | .hbm, ⟨22, _⟩ => ⟨S4096x128, .f32⟩
  | .hbm, ⟨23, _⟩ => ⟨S4096x384, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x512, .f32⟩
  | .hbm, ⟨35, _⟩ => ⟨S1x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x256, .f32⟩
  | .hbm, ⟨40, _⟩ => ⟨S1x256, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S4096x1, .f32⟩
  | .hbm, ⟨45, _⟩ => ⟨S1x1, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst : Ref sig .tc := ⟨.hbm, 50, rfl⟩
abbrev main_v36 : Ref sig .tc := ⟨.hbm, 51, rfl⟩
abbrev main_v37 : Ref sig .tc := ⟨.hbm, 52, rfl⟩
abbrev main_cst_0 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  transposes_S16384x4096_S4096x16384_1_0 : S16384x4096.Transposes [1, 0] S4096x16384
  concatenates_S4096x128_S4096x128_S4096x128_S4096x384_d1 : Shape.Concatenates [S4096x128, S4096x128, S4096x128] S4096x384 1
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  dot_S16384x4096_S4096x128_S16384x128_1_0_0_1_n_n_wf : DotDims.WF S16384x4096 S4096x128 S16384x128 [1] [0] [0] [1] [] []
  dot_S4096x16384_S16384x128_S4096x128_1_0_0_1_n_n_wf : DotDims.WF S4096x16384 S16384x128 S4096x128 [1] [0] [0] [1] [] []
  dot_S4096x384_S384x1024_S4096x1024_1_0_0_1_n_n_wf : DotDims.WF S4096x384 S384x1024 S4096x1024 [1] [0] [0] [1] [] []
  dot_S4096x1024_S1024x1024_S4096x1024_1_0_0_1_n_n_wf : DotDims.WF S4096x1024 S1024x1024 S4096x1024 [1] [0] [0] [1] [] []
  dot_S4096x1024_S1024x512_S4096x512_1_0_0_1_n_n_wf : DotDims.WF S4096x1024 S1024x512 S4096x512 [1] [0] [0] [1] [] []
  dot_S4096x512_S512x256_S4096x256_1_0_0_1_n_n_wf : DotDims.WF S4096x512 S512x256 S4096x256 [1] [0] [0] [1] [] []
  dot_S4096x256_S256x1_S4096x1_1_0_0_1_n_n_wf : DotDims.WF S4096x256 S256x1 S4096x1 [1] [0] [0] [1] [] []

variable [Facts₀]

def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf
def dot_S4096x16384_S16384x128_S4096x128_1_0_0_1_n_n : DotDims S4096x16384 S16384x128 S4096x128 where
  lhsContracting := [1]
  rhsContracting := [0]
  lhsNonContracting := [0]
  rhsNonContracting := [1]
  lhsBatch := []
  rhsBatch := []
  wf := dot_S4096x16384_S16384x128_S4096x128_1_0_0_1_n_n_wf
def dot_S4096x384_S384x1024_S4096x1024_1_0_0_1_n_n : DotDims S4096x384 S384x1024 S4096x1024 where
  lhsContracting := [1]
  rhsContracting := [0]
  lhsNonContracting := [0]
  rhsNonContracting := [1]
  lhsBatch := []
  rhsBatch := []
  wf := dot_S4096x384_S384x1024_S4096x1024_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

class Facts : Prop extends Facts₀ where

variable [Facts]
-- ==== Proof.HostArrays.lean ====
import proofs.«143709_j72344429134238_1_alg».proof.Proof.Gen.KernelIdeal.Frame
import Idealize.ShloMosaic.Lib.StableHlo.Run

set_option maxRecDepth 16384

/-! # What the two kernel regions find in their arrays

Before the first region the host scales the node features: row `n` of `H` times `e n`. Between the regions it only lays
each bias vector out as a one-row matrix. Every other array a region reads is an argument as launched, except the two
aggregates the first region leaves for the second. -/

noncomputable section

namespace Cert.KernelIdeal.Named

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-! ## At the first region's entry -/

/-- The first incidence matrix is the argument as launched. -/
theorem W1_main_arg1 (c : Dev nD) : W1 m ρ c (Proc.devRef .tc main_arg1) = m ((c : Thread nD τ).loc main_arg1) := by
  show StableHlo.after hostOps0 (W0 m ρ c) (Proc.devRef .tc main_arg1) = _
  after_results

/-- The second incidence matrix is the argument as launched. -/
theorem W1_main_arg2 (c : Dev nD) : W1 m ρ c (Proc.devRef .tc main_arg2) = m ((c : Thread nD τ).loc main_arg2) := by
  show StableHlo.after hostOps0 (W0 m ρ c) (Proc.devRef .tc main_arg2) = _
  after_results

/-- The scaled features: the node weights broadcast along the rows, times the features. -/
theorem W1_main_v2 (c : Dev nD) : W1 m ρ c (Proc.devRef .tc main_v2)
    = mulf (broadcastInDim S4096x128 ![0, 1] bcast_S4096x1_S4096x128_0_1
        (broadcastInDim S4096x1 ![0] bcast_S4096_S4096x1_0 (m ((c : Thread nD τ).loc main_arg3)))) (m ((c : Thread nD τ).loc main_arg0)) := by
  show StableHlo.after hostOps0 (W0 m ρ c) (Proc.devRef .tc main_v2) = _
  after_results

/-! ## At the second region's entry -/

/-- The first aggregate is what the first region's write-backs left. -/
theorem W3_main_v3_0 (c : Dev nD) : W3 m ρ c (Proc.devRef .tc main_v3_0) = (dat0 (V1 m ρ) c).arrAt 3 cfg0.N := by
  have h3 : W3 m ρ c (Proc.devRef .tc main_v3_0) = W2 m ρ c (Proc.devRef .tc main_v3_0) := by
    show StableHlo.after hostOps1 (W2 m ρ c) (Proc.devRef .tc main_v3_0) = _
    after_results
  exact h3.trans (W2_arr m ρ c 3)

/-- The second aggregate likewise. -/
theorem W3_main_v3_1 (c : Dev nD) : W3 m ρ c (Proc.devRef .tc main_v3_1) = (dat0 (V1 m ρ) c).arrAt 4 cfg0.N := by
  have h3 : W3 m ρ c (Proc.devRef .tc main_v3_1) = W2 m ρ c (Proc.devRef .tc main_v3_1) := by
    show StableHlo.after hostOps1 (W2 m ρ c) (Proc.devRef .tc main_v3_1) = _
    after_results
  exact h3.trans (W2_arr m ρ c 4)

/-! The features and the five weight matrices are the arguments as launched. -/

theorem W3_main_arg0 (c : Dev nD) : W3 m ρ c (Proc.devRef .tc main_arg0) = m ((c : Thread nD τ).loc main_arg0) := by
  have h3 : W3 m ρ c (Proc.devRef .tc main_arg0) = W2 m ρ c (Proc.devRef .tc main_arg0) := by
    show StableHlo.after hostOps1 (W2 m ρ c) (Proc.devRef .tc main_arg0) = _
    after_results
  have h1 : W1 m ρ c (Proc.devRef .tc main_arg0) = W0 m ρ c (Proc.devRef .tc main_arg0) := by
    show StableHlo.after hostOps0 (W0 m ρ c) (Proc.devRef .tc main_arg0) = _
    after_results
  exact h3.trans ((W2_of_ne m ρ c main_arg0 (by decide)).trans (h1.trans rfl))

theorem W3_main_arg4 (c : Dev nD) : W3 m ρ c (Proc.devRef .tc main_arg4) = m ((c : Thread nD τ).loc main_arg4) := by
  have h3 : W3 m ρ c (Proc.devRef .tc main_arg4) = W2 m ρ c (Proc.devRef .tc main_arg4) := by
    show StableHlo.after hostOps1 (W2 m ρ c) (Proc.devRef .tc main_arg4) = _
    after_results
  have h1 : W1 m ρ c (Proc.devRef .tc main_arg4) = W0 m ρ c (Proc.devRef .tc main_arg4) := by
    show StableHlo.after hostOps0 (W0 m ρ c) (Proc.devRef .tc main_arg4) = _
    after_results
  exact h3.trans ((W2_of_ne m ρ c main_arg4 (by decide)).trans (h1.trans rfl))

theorem W3_main_arg6 (c : Dev nD) : W3 m ρ c (Proc.devRef .tc main_arg6) = m ((c : Thread nD τ).loc main_arg6) := by
  have h3 : W3 m ρ c (Proc.devRef .tc main_arg6) = W2 m ρ c (Proc.devRef .tc main_arg6) := by
    show StableHlo.after hostOps1 (W2 m ρ c) (Proc.devRef .tc main_arg6) = _
    after_results
  have h1 : W1 m ρ c (Proc.devRef .tc main_arg6) = W0 m ρ c (Proc.devRef .tc main_arg6) := by
    show StableHlo.after hostOps0 (W0 m ρ c) (Proc.devRef .tc main_arg6) = _
    after_results
  exact h3.trans ((W2_of_ne m ρ c main_arg6 (by decide)).trans (h1.trans rfl))

theorem W3_main_arg8 (c : Dev nD) : W3 m ρ c (Proc.devRef .tc main_arg8) = m ((c : Thread nD τ).loc main_arg8) := by
  have h3 : W3 m ρ c (Proc.devRef .tc main_arg8) = W2 m ρ c (Proc.devRef .tc main_arg8) := by
    show StableHlo.after hostOps1 (W2 m ρ c) (Proc.devRef .tc main_arg8) = _
    after_results
  have h1 : W1 m ρ c (Proc.devRef .tc main_arg8) = W0 m ρ c (Proc.devRef .tc main_arg8) := by
    show StableHlo.after hostOps0 (W0 m ρ c) (Proc.devRef .tc main_arg8) = _
    after_results
  exact h3.trans ((W2_of_ne m ρ c main_arg8 (by decide)).trans (h1.trans rfl))

theorem W3_main_arg10 (c : Dev nD) : W3 m ρ c (Proc.devRef .tc main_arg10) = m ((c : Thread nD τ).loc main_arg10) := by
  have h3 : W3 m ρ c (Proc.devRef .tc main_arg10) = W2 m ρ c (Proc.devRef .tc main_arg10) := by
    show StableHlo.after hostOps1 (W2 m ρ c) (Proc.devRef .tc main_arg10) = _
    after_results
  have h1 : W1 m ρ c (Proc.devRef .tc main_arg10) = W0 m ρ c (Proc.devRef .tc main_arg10) := by
    show StableHlo.after hostOps0 (W0 m ρ c) (Proc.devRef .tc main_arg10) = _
    after_results
  exact h3.trans ((W2_of_ne m ρ c main_arg10 (by decide)).trans (h1.trans rfl))

theorem W3_main_arg12 (c : Dev nD) : W3 m ρ c (Proc.devRef .tc main_arg12) = m ((c : Thread nD τ).loc main_arg12) := by
  have h3 : W3 m ρ c (Proc.devRef .tc main_arg12) = W2 m ρ c (Proc.devRef .tc main_arg12) := by
    show StableHlo.after hostOps1 (W2 m ρ c) (Proc.devRef .tc main_arg12) = _
    after_results
  have h1 : W1 m ρ c (Proc.devRef .tc main_arg12) = W0 m ρ c (Proc.devRef .tc main_arg12) := by
    show StableHlo.after hostOps0 (W0 m ρ c) (Proc.devRef .tc main_arg12) = _
    after_results
  exact h3.trans ((W2_of_ne m ρ c main_arg12 (by decide)).trans (h1.trans rfl))

/-- Bias `main_arg5` laid out as one row: the buffer the second region stages. -/
theorem W3_main_v4 (c : Dev nD) : W3 m ρ c (Proc.devRef .tc main_v4) = shapeCast S1x1024 (m ((c : Thread nD τ).loc main_arg5)) shapeCasts_S1024_S1x1024 := by
  have h3 : W3 m ρ c (Proc.devRef .tc main_v4) = shapeCast S1x1024 (W2 m ρ c (Proc.devRef .tc main_arg5)) shapeCasts_S1024_S1x1024 := by
    show StableHlo.after hostOps1 (W2 m ρ c) (Proc.devRef .tc main_v4) = _
    after_results
    rfl
  have h1 : W1 m ρ c (Proc.devRef .tc main_arg5) = W0 m ρ c (Proc.devRef .tc main_arg5) := by
    show StableHlo.after hostOps0 (W0 m ρ c) (Proc.devRef .tc main_arg5) = _
    after_results
  rw [h3, W2_of_ne m ρ c main_arg5 (by decide), h1]

/-- Bias `main_arg7` laid out as one row: the buffer the second region stages. -/
theorem W3_main_v5 (c : Dev nD) : W3 m ρ c (Proc.devRef .tc main_v5) = shapeCast S1x1024 (m ((c : Thread nD τ).loc main_arg7)) shapeCasts_S1024_S1x1024 := by
  have h3 : W3 m ρ c (Proc.devRef .tc main_v5) = shapeCast S1x1024 (W2 m ρ c (Proc.devRef .tc main_arg7)) shapeCasts_S1024_S1x1024 := by
    show StableHlo.after hostOps1 (W2 m ρ c) (Proc.devRef .tc main_v5) = _
    after_results
    rfl
  have h1 : W1 m ρ c (Proc.devRef .tc main_arg7) = W0 m ρ c (Proc.devRef .tc main_arg7) := by
    show StableHlo.after hostOps0 (W0 m ρ c) (Proc.devRef .tc main_arg7) = _
    after_results
  rw [h3, W2_of_ne m ρ c main_arg7 (by decide), h1]

/-- Bias `main_arg9` laid out as one row: the buffer the second region stages. -/
theorem W3_main_v6 (c : Dev nD) : W3 m ρ c (Proc.devRef .tc main_v6) = shapeCast S1x512 (m ((c : Thread nD τ).loc main_arg9)) shapeCasts_S512_S1x512 := by
  have h3 : W3 m ρ c (Proc.devRef .tc main_v6) = shapeCast S1x512 (W2 m ρ c (Proc.devRef .tc main_arg9)) shapeCasts_S512_S1x512 := by
    show StableHlo.after hostOps1 (W2 m ρ c) (Proc.devRef .tc main_v6) = _
    after_results
    rfl
  have h1 : W1 m ρ c (Proc.devRef .tc main_arg9) = W0 m ρ c (Proc.devRef .tc main_arg9) := by
    show StableHlo.after hostOps0 (W0 m ρ c) (Proc.devRef .tc main_arg9) = _
    after_results
  rw [h3, W2_of_ne m ρ c main_arg9 (by decide), h1]

/-- Bias `main_arg11` laid out as one row: the buffer the second region stages. -/
theorem W3_main_v7 (c : Dev nD) : W3 m ρ c (Proc.devRef .tc main_v7) = shapeCast S1x256 (m ((c : Thread nD τ).loc main_arg11)) shapeCasts_S256_S1x256 := by
  have h3 : W3 m ρ c (Proc.devRef .tc main_v7) = shapeCast S1x256 (W2 m ρ c (Proc.devRef .tc main_arg11)) shapeCasts_S256_S1x256 := by
    show StableHlo.after hostOps1 (W2 m ρ c) (Proc.devRef .tc main_v7) = _
    after_results
    rfl
  have h1 : W1 m ρ c (Proc.devRef .tc main_arg11) = W0 m ρ c (Proc.devRef .tc main_arg11) := by
    show StableHlo.after hostOps0 (W0 m ρ c) (Proc.devRef .tc main_arg11) = _
    after_results
  rw [h3, W2_of_ne m ρ c main_arg11 (by decide), h1]

/-- Bias `main_arg13` laid out as one row: the buffer the second region stages. -/
theorem W3_main_v8 (c : Dev nD) : W3 m ρ c (Proc.devRef .tc main_v8) = shapeCast S1x1 (m ((c : Thread nD τ).loc main_arg13)) shapeCasts_S1_S1x1 := by
  have h3 : W3 m ρ c (Proc.devRef .tc main_v8) = shapeCast S1x1 (W2 m ρ c (Proc.devRef .tc main_arg13)) shapeCasts_S1_S1x1 := by
    show StableHlo.after hostOps1 (W2 m ρ c) (Proc.devRef .tc main_v8) = _
    after_results
    rfl
  have h1 : W1 m ρ c (Proc.devRef .tc main_arg13) = W0 m ρ c (Proc.devRef .tc main_arg13) := by
    show StableHlo.after hostOps0 (W0 m ρ c) (Proc.devRef .tc main_arg13) = _
    after_results
  rw [h3, W2_of_ne m ρ c main_arg13 (by decide), h1]

end Cert.KernelIdeal.Named

end
-- ==== Proof.EdgePayload.lean ====
import proofs.«143709_j72344429134238_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.EdgePay

open Cert.KernelIdeal Cert.KernelIdeal.Gen Idealize.ShloMosaic Idealize.ShloMosaic.ValueIdx
open scoped BigOperators

/-- The block of zeros the first grid point stores into the first accumulator. -/
theorem zero3 (n : Fin 4096) (d : Fin 128) : k0_pay1 (F := Ideal) (ix2 n d) = 0 := by
  -- a broadcast scalar reads that scalar everywhere, and the scalar is the zero literal
  unfold k0_pay1
  rw [broadcast_apply]
  exact Ideal.ofBits_zero_f32

/-- The block of zeros the first grid point stores into the second accumulator. -/
theorem zero4 (n : Fin 4096) (d : Fin 128) : k0_pay2 (F := Ideal) (ix2 n d) = 0 := by
  unfold k0_pay2
  rw [broadcast_apply]
  exact Ideal.ofBits_zero_f32

/-! ## The first product: a 256×4096 factor times a 4096×128 factor

Entry `(r, d)` of the result contracts the left factor's second axis with the right factor's first axis: the left
factor is read at `(r, k)`, the right one at `(k, d)`. -/

/-- The left factor's row coordinate is the result's row. -/
theorem lhsA_0 (i : S256x128.Idx) (q : dot_S256x4096_S4096x128_S256x128_1_0_0_1_n_n.contr.Idx) :
    (dot_S256x4096_S4096x128_S256x128_1_0_0_1_n_n.lhsIdx i q 0).val = (i 0).val := by
  unfold DotDims.lhsIdx
  rw [dif_neg (show ¬(0 : Fin S256x4096.rank) ∈ dot_S256x4096_S4096x128_S256x128_1_0_0_1_n_n.lhsBatch by decide), dif_pos (show (0 : Fin S256x4096.rank) ∈ dot_S256x4096_S4096x128_S256x128_1_0_0_1_n_n.lhsNonContracting by decide)]
  rfl
/-- The left factor's column coordinate is the summation index. -/
theorem lhsA_1 (i : S256x128.Idx) (q : dot_S256x4096_S4096x128_S256x128_1_0_0_1_n_n.contr.Idx) :
    (dot_S256x4096_S4096x128_S256x128_1_0_0_1_n_n.lhsIdx i q 1).val = (q ⟨0, by decide⟩).val :=
  dot_S256x4096_S4096x128_S256x128_1_0_0_1_n_n.lhsIdx_val_of_single rfl i q
/-- The right factor's row coordinate is the summation index. -/
theorem rhsA_0 (i : S256x128.Idx) (q : dot_S256x4096_S4096x128_S256x128_1_0_0_1_n_n.contr.Idx) :
    (dot_S256x4096_S4096x128_S256x128_1_0_0_1_n_n.rhsIdx i q 0).val = (q ⟨0, by decide⟩).val :=
  dot_S256x4096_S4096x128_S256x128_1_0_0_1_n_n.rhsIdx_val_of_single rfl i q
/-- The right factor's column coordinate is the result's column. -/
theorem rhsA_1 (i : S256x128.Idx) (q : dot_S256x4096_S4096x128_S256x128_1_0_0_1_n_n.contr.Idx) :
    (dot_S256x4096_S4096x128_S256x128_1_0_0_1_n_n.rhsIdx i q 1).val = (i 1).val := by
  unfold DotDims.rhsIdx
  rw [dif_neg (show ¬(1 : Fin S4096x128.rank) ∈ dot_S256x4096_S4096x128_S256x128_1_0_0_1_n_n.rhsBatch by decide), dif_pos (show (1 : Fin S4096x128.rank) ∈ dot_S256x4096_S4096x128_S256x128_1_0_0_1_n_n.rhsNonContracting by decide)]
  rfl

/-- The first product accumulated into zeros, at entry `(r, d)`: the sum over `k` of the left factor at `(r, k)` times
    the right factor at `(k, d)`. -/
theorem mmA_apply {φ₁ φ₂ : FTy} (a : FVec Ideal S256x4096 φ₁) (b : FVec Ideal S4096x128 φ₂) (r : Fin 256) (d : Fin 128) :
    matmul dot_S256x4096_S4096x128_S256x128_1_0_0_1_n_n none a b (constant S256x128 .f32 0x00000000#32) (ix2 r d)
      = ∑ k : Fin 4096, a (ix2 r k) * b (ix2 k d) := by
  simp only [matmul]
  -- the sum over the one-axis contraction index is the sum over that axis's coordinate
  rw [Ideal.matmul_constant_zero_apply, ← Equiv.sum_comp (ValueIdx.contrEquiv1 dot_S256x4096_S4096x128_S256x128_1_0_0_1_n_n 4096 rfl rfl).symm]
  refine Finset.sum_congr rfl fun k _ => ?_
  have hk := ValueIdx.contrEquiv1_symm_val dot_S256x4096_S4096x128_S256x128_1_0_0_1_n_n 4096 rfl rfl k
  have el : dot_S256x4096_S4096x128_S256x128_1_0_0_1_n_n.lhsIdx (ix2 r d) ((ValueIdx.contrEquiv1 dot_S256x4096_S4096x128_S256x128_1_0_0_1_n_n 4096 rfl rfl).symm k) = ix2 r k := funext fun x => Fin.ext (by
    match x with
    | ⟨0, _⟩ => exact lhsA_0 _ _
    | ⟨1, _⟩ => exact (lhsA_1 _ _).trans hk)
  have er : dot_S256x4096_S4096x128_S256x128_1_0_0_1_n_n.rhsIdx (ix2 r d) ((ValueIdx.contrEquiv1 dot_S256x4096_S4096x128_S256x128_1_0_0_1_n_n 4096 rfl rfl).symm k) = ix2 k d := funext fun x => Fin.ext (by
    match x with
    | ⟨0, _⟩ => exact (rhsA_0 _ _).trans hk
    | ⟨1, _⟩ => exact rhsA_1 _ _)
  rw [el, er]

/-! ## The second product: the transpose of a 256×4096 factor times a 256×128 factor

Entry `(n, d)` of the result contracts the FIRST axis of both factors: the left factor is read at `(r, n)`, the right
one at `(r, d)`. -/

/-- The left factor's row coordinate is the summation index. -/
theorem lhsB_0 (i : S4096x128.Idx) (q : dot_S256x4096_S256x128_S4096x128_0_0_1_1_n_n.contr.Idx) :
    (dot_S256x4096_S256x128_S4096x128_0_0_1_1_n_n.lhsIdx i q 0).val = (q ⟨0, by decide⟩).val :=
  dot_S256x4096_S256x128_S4096x128_0_0_1_1_n_n.lhsIdx_val_of_single rfl i q
/-- The left factor's column coordinate is the result's row. -/
theorem lhsB_1 (i : S4096x128.Idx) (q : dot_S256x4096_S256x128_S4096x128_0_0_1_1_n_n.contr.Idx) :
    (dot_S256x4096_S256x128_S4096x128_0_0_1_1_n_n.lhsIdx i q 1).val = (i 0).val := by
  unfold DotDims.lhsIdx
  rw [dif_neg (show ¬(1 : Fin S256x4096.rank) ∈ dot_S256x4096_S256x128_S4096x128_0_0_1_1_n_n.lhsBatch by decide), dif_pos (show (1 : Fin S256x4096.rank) ∈ dot_S256x4096_S256x128_S4096x128_0_0_1_1_n_n.lhsNonContracting by decide)]
  rfl
/-- The right factor's row coordinate is the summation index. -/
theorem rhsB_0 (i : S4096x128.Idx) (q : dot_S256x4096_S256x128_S4096x128_0_0_1_1_n_n.contr.Idx) :
    (dot_S256x4096_S256x128_S4096x128_0_0_1_1_n_n.rhsIdx i q 0).val = (q ⟨0, by decide⟩).val :=
  dot_S256x4096_S256x128_S4096x128_0_0_1_1_n_n.rhsIdx_val_of_single rfl i q
/-- The right factor's column coordinate is the result's column. -/
theorem rhsB_1 (i : S4096x128.Idx) (q : dot_S256x4096_S256x128_S4096x128_0_0_1_1_n_n.contr.Idx) :
    (dot_S256x4096_S256x128_S4096x128_0_0_1_1_n_n.rhsIdx i q 1).val = (i 1).val := by
  unfold DotDims.rhsIdx
  rw [dif_neg (show ¬(1 : Fin S256x128.rank) ∈ dot_S256x4096_S256x128_S4096x128_0_0_1_1_n_n.rhsBatch by decide), dif_pos (show (1 : Fin S256x128.rank) ∈ dot_S256x4096_S256x128_S4096x128_0_0_1_1_n_n.rhsNonContracting by decide)]
  rfl

/-- The second product accumulated into zeros, at entry `(n, d)`: the sum over `r` of the left factor at `(r, n)` times
    the right factor at `(r, d)`. -/
theorem mmB_apply {φ₁ φ₂ : FTy} (a : FVec Ideal S256x4096 φ₁) (b : FVec Ideal S256x128 φ₂) (n : Fin 4096) (d : Fin 128) :
    matmul dot_S256x4096_S256x128_S4096x128_0_0_1_1_n_n none a b (constant S4096x128 .f32 0x00000000#32) (ix2 n d)
      = ∑ r : Fin 256, a (ix2 r n) * b (ix2 r d) := by
  simp only [matmul]
  rw [Ideal.matmul_constant_zero_apply, ← Equiv.sum_comp (ValueIdx.contrEquiv1 dot_S256x4096_S256x128_S4096x128_0_0_1_1_n_n 256 rfl rfl).symm]
  refine Finset.sum_congr rfl fun r _ => ?_
  have hr := ValueIdx.contrEquiv1_symm_val dot_S256x4096_S256x128_S4096x128_0_0_1_1_n_n 256 rfl rfl r
  have el : dot_S256x4096_S256x128_S4096x128_0_0_1_1_n_n.lhsIdx (ix2 n d) ((ValueIdx.contrEquiv1 dot_S256x4096_S256x128_S4096x128_0_0_1_1_n_n 256 rfl rfl).symm r) = ix2 r n := funext fun x => Fin.ext (by
    match x with
    | ⟨0, _⟩ => exact (lhsB_0 _ _).trans hr
    | ⟨1, _⟩ => exact lhsB_1 _ _)
  have er : dot_S256x4096_S256x128_S4096x128_0_0_1_1_n_n.rhsIdx (ix2 n d) ((ValueIdx.contrEquiv1 dot_S256x4096_S256x128_S4096x128_0_0_1_1_n_n 256 rfl rfl).symm r) = ix2 r d := funext fun x => Fin.ext (by
    match x with
    | ⟨0, _⟩ => exact (rhsB_0 _ _).trans hr
    | ⟨1, _⟩ => exact rhsB_1 _ _)
  rw [el, er]

/-! ## The two accumulator updates -/

/-- What a grid point stores into the first accumulator, at entry `(n, d)`: what the accumulator held plus, over the
    256 edges `r` of the tile, the second incidence tile's entry `(r, n)` times row `r` of the first tile times the
    scaled features. -/
theorem acc3 (v3 v5 : Vec Ideal S256x4096 .f32) (v7 v16 : Vec Ideal S4096x128 .f32) (n : Fin 4096) (d : Fin 128) :
    k0_pay6 (F := Ideal) v3 v5 v7 v16 (ix2 n d)
      = v16 (ix2 n d) + ∑ r : Fin 256, v5 (ix2 r n) * ∑ k : Fin 4096, v3 (ix2 r k) * v7 (ix2 k d) := by
  unfold k0_pay6 k0_pay3 k0_pay4 k0_pay5
  -- the pointwise sum at the entry; a cast to the same shape changes nothing
  rw [addf_apply, shapeCast_self, shapeCast_self]
  -- the outer product at (n, d), then the inner one at each (r, d); narrowing a float is the identity here
  rw [mmB_apply]
  refine congrArg (fun t => v16 (ix2 n d) + t) (Finset.sum_congr rfl fun r _ => ?_)
  rw [truncf_apply, truncf_apply, mmA_apply]
  refine congrArg (fun t => v5 (ix2 r n) * t) (Finset.sum_congr rfl fun k _ => ?_)
  rw [truncf_apply, truncf_apply]

/-- The same for the second accumulator, the two incidence tiles exchanged. -/
theorem acc4 (v3 v5 : Vec Ideal S256x4096 .f32) (v7 v20 : Vec Ideal S4096x128 .f32) (n : Fin 4096) (d : Fin 128) :
    k0_pay7 (F := Ideal) v3 v5 v7 v20 (ix2 n d)
      = v20 (ix2 n d) + ∑ r : Fin 256, v3 (ix2 r n) * ∑ k : Fin 4096, v5 (ix2 r k) * v7 (ix2 k d) := by
  unfold k0_pay7 k0_pay3 k0_pay4 k0_pay5
  rw [addf_apply, shapeCast_self, shapeCast_self]
  rw [mmB_apply]
  refine congrArg (fun t => v20 (ix2 n d) + t) (Finset.sum_congr rfl fun r _ => ?_)
  rw [truncf_apply, truncf_apply, mmA_apply]
  refine congrArg (fun t => v3 (ix2 r n) * t) (Finset.sum_congr rfl fun k _ => ?_)
  rw [truncf_apply, truncf_apply]

end Cert.KernelIdeal.EdgePay

end
-- ==== Proof.LibSumBlocks.lean ====
import Mathlib.Data.Fintype.BigOperators
import Mathlib.Logic.Equiv.Fin.Basic

/-! # A sum over consecutive blocks

A sum over `A * B` consecutive indices, cut into `A` blocks of `B`: entry `r` of block `t` is index `B * t + r`. -/

namespace Cert.LibSumBlocks

open scoped BigOperators

/-- Entry `r` of block `t`, of `A` blocks of `B` entries each, is below `A * B`. -/
theorem block_lt {A B N : ℕ} (h : A * B = N) (t : Fin A) (r : Fin B) : B * t.val + r.val < N := by
  have h1 : B * (t.val + 1) ≤ B * A := Nat.mul_le_mul_left _ t.isLt
  have h2 : B * (t.val + 1) = B * t.val + B := Nat.mul_succ _ _
  have h3 := r.isLt
  rw [← h, Nat.mul_comm A B]
  omega

/-- THE SUM BY BLOCKS: over `N = A * B` indices, the sum over the `A` blocks of the sum over the `B` entries inside
    each block, entry `r` of block `t` being index `B * t + r`, is the sum over all `N` indices, in any additive
    commutative monoid. -/
theorem sum_blocks {M : Type*} [AddCommMonoid M] {A B N : ℕ} (h : A * B = N) (f : Fin N → M) :
    ∑ t : Fin A, ∑ r : Fin B, f ⟨B * t.val + r.val, block_lt h t r⟩ = ∑ n : Fin N, f n := by
  subst h
  rw [← Fintype.sum_prod_type' (fun (t : Fin A) (r : Fin B) => f ⟨B * t.val + r.val, block_lt rfl t r⟩)]
  refine Fintype.sum_equiv finProdFinEquiv _ _ fun x => ?_
  refine congrArg f (Fin.ext ?_)
  show B * x.1.val + x.2.val = x.2.val + B * x.1.val
  exact Nat.add_comm _ _

end Cert.LibSumBlocks
-- ==== Proof.Spec.lean ====
import Idealize.ShloMosaic.PureOps.Ideal
import Idealize.ShloMosaic.Lib.ValueIdx

/-! # What both programs compute, as one function of the argument arrays

Every node `n` of 4096 carries 128 features `H n`, scaled by the node's weight `e n`. The two incidence matrices `Ro`, `Ri`
(16384 edges by 4096 nodes) aggregate the scaled features along the edges: `Ho = Riᵀ (Ro (e·H))` and `Hi = Roᵀ (Ri (e·H))`.
Node `n`'s result is a five-layer perceptron of the 384 numbers `Ho n`, `H n`, `Hi n`: four `tanh` layers and a logistic one.
Everything is over the extended reals, entry by entry; sums are finite sums, so their grouping and order do not matter. -/

noncomputable section

namespace Cert.Spec

open Idealize.ShloMosaic Idealize.ShloMosaic.ValueIdx
open scoped BigOperators

/-- A rank-2 array as a function of its two coordinates. -/
abbrev m2 {a b : ℕ} (X : (⟨2, ![a, b]⟩ : Shape).Idx → EReal) : Fin a → Fin b → EReal := fun i j => X (ix2 i j)
/-- A rank-1 array as a function of its coordinate. -/
abbrev m1 {a : ℕ} (x : (⟨1, ![a]⟩ : Shape).Idx → EReal) : Fin a → EReal := fun i => x (ix1 i)

/-- The node features scaled by the node's weight: `e n · H n d`. -/
def scaled (e : Fin 4096 → EReal) (H : Fin 4096 → Fin 128 → EReal) : Fin 4096 → Fin 128 → EReal :=
  fun n d => e n * H n d

/-- `Pᵀ (Q X)`: entry `(n, d)` sums over the edges `r` the entry `P r n` times row `r` of `Q X`. -/
def agg (P Q : Fin 16384 → Fin 4096 → EReal) (X : Fin 4096 → Fin 128 → EReal) : Fin 4096 → Fin 128 → EReal :=
  fun n d => ∑ r : Fin 16384, P r n * ∑ k : Fin 4096, Q r k * X k d

/-- One row through a dense layer: `x W + b`. -/
def affine {K J : ℕ} (x : Fin K → EReal) (W : Fin K → Fin J → EReal) (b : Fin J → EReal) : Fin J → EReal :=
  fun j => (∑ k : Fin K, x k * W k j) + b j

/-- A `tanh` layer. -/
def hidden {K J : ℕ} (x : Fin K → EReal) (W : Fin K → Fin J → EReal) (b : Fin J → EReal) : Fin J → EReal :=
  fun j => Ideal.tanh (affine x W b j)

/-- The first layer on the three 128-wide pieces of a node's 384 inputs, each against its own 128 rows of the
    weights: `tanh (((ho Wa + h Wb) + hi Wc) + b)`. -/
def firstSplit (ho h hi : Fin 128 → EReal) (Wa Wb Wc : Fin 128 → Fin 1024 → EReal) (b : Fin 1024 → EReal) :
    Fin 1024 → EReal :=
  fun j => Ideal.tanh ((((∑ k : Fin 128, ho k * Wa k j) + ∑ k : Fin 128, h k * Wb k j) + ∑ k : Fin 128, hi k * Wc k j) + b j)

/-- Rows `128 s … 128 s + 127` of a 384-row matrix, for `s = 0, 1, 2`. -/
def rows0 (W : Fin 384 → Fin 1024 → EReal) : Fin 128 → Fin 1024 → EReal := fun k j => W ⟨k.val, by have := k.isLt; omega⟩ j
def rows1 (W : Fin 384 → Fin 1024 → EReal) : Fin 128 → Fin 1024 → EReal := fun k j => W ⟨128 + k.val, by have := k.isLt; omega⟩ j
def rows2 (W : Fin 384 → Fin 1024 → EReal) : Fin 128 → Fin 1024 → EReal := fun k j => W ⟨256 + k.val, by have := k.isLt; omega⟩ j

/-- The layers after the first, down to the one result of a node. -/
def tail (x1 : Fin 1024 → EReal) (W2 : Fin 1024 → Fin 1024 → EReal) (b2 : Fin 1024 → EReal)
    (W3 : Fin 1024 → Fin 512 → EReal) (b3 : Fin 512 → EReal) (W4 : Fin 512 → Fin 256 → EReal) (b4 : Fin 256 → EReal)
    (W5 : Fin 256 → Fin 1 → EReal) (b5 : Fin 1 → EReal) : EReal :=
  Ideal.logistic (affine (hidden (hidden (hidden x1 W2 b2) W3 b3) W4 b4) W5 b5 0)

/-- A node's result from its three 128-wide inputs, the first layer's weights given as three blocks of rows. -/
def rowSplit (ho h hi : Fin 128 → EReal) (Wa Wb Wc : Fin 128 → Fin 1024 → EReal) (b1 : Fin 1024 → EReal)
    (W2 : Fin 1024 → Fin 1024 → EReal) (b2 : Fin 1024 → EReal)
    (W3 : Fin 1024 → Fin 512 → EReal) (b3 : Fin 512 → EReal) (W4 : Fin 512 → Fin 256 → EReal) (b4 : Fin 256 → EReal)
    (W5 : Fin 256 → Fin 1 → EReal) (b5 : Fin 1 → EReal) : EReal :=
  tail (firstSplit ho h hi Wa Wb Wc b1) W2 b2 W3 b3 W4 b4 W5 b5

/-- THE RESULT, a 4096 by 1 array, from the fourteen argument arrays in the order of the programs' arguments
    (`H, Ro, Ri, e, W1, b1, W2, b2, W3, b3, W4, b4, W5, b5`). -/
def out (x0 : (⟨2, ![4096, 128]⟩ : Shape).Idx → EReal) (x1 x2 : (⟨2, ![16384, 4096]⟩ : Shape).Idx → EReal)
    (x3 : (⟨1, ![4096]⟩ : Shape).Idx → EReal) (x4 : (⟨2, ![384, 1024]⟩ : Shape).Idx → EReal) (x5 : (⟨1, ![1024]⟩ : Shape).Idx → EReal)
    (x6 : (⟨2, ![1024, 1024]⟩ : Shape).Idx → EReal) (x7 : (⟨1, ![1024]⟩ : Shape).Idx → EReal)
    (x8 : (⟨2, ![1024, 512]⟩ : Shape).Idx → EReal) (x9 : (⟨1, ![512]⟩ : Shape).Idx → EReal)
    (x10 : (⟨2, ![512, 256]⟩ : Shape).Idx → EReal) (x11 : (⟨1, ![256]⟩ : Shape).Idx → EReal)
    (x12 : (⟨2, ![256, 1]⟩ : Shape).Idx → EReal) (x13 : (⟨1, ![1]⟩ : Shape).Idx → EReal) :
    (⟨2, ![4096, 1]⟩ : Shape).Idx → EReal :=
  fun i =>
    rowSplit (agg (m2 x2) (m2 x1) (scaled (m1 x3) (m2 x0)) ⟨(i 0).val, (i 0).isLt⟩)
      (m2 x0 ⟨(i 0).val, (i 0).isLt⟩)
      (agg (m2 x1) (m2 x2) (scaled (m1 x3) (m2 x0)) ⟨(i 0).val, (i 0).isLt⟩)
      (rows0 (m2 x4)) (rows1 (m2 x4)) (rows2 (m2 x4)) (m1 x5) (m2 x6) (m1 x7) (m2 x8) (m1 x9) (m2 x10) (m1 x11) (m2 x12) (m1 x13)

end Cert.Spec

end
-- ==== Proof.Region0.lean ====
import proofs.«143709_j72344429134238_1_alg».proof.Proof.Gen.KernelIdeal.Frame
import proofs.«143709_j72344429134238_1_alg».proof.Proof.EdgePayload
import proofs.«143709_j72344429134238_1_alg».proof.Proof.LibSumBlocks
import proofs.«143709_j72344429134238_1_alg».proof.Proof.Spec
import Idealize.ShloMosaic.Lib.Pipeline.Value
import Idealize.ShloMosaic.Lib.Tactic

set_option maxRecDepth 16384

/-! # The first region: the two aggregates

The grid walks the 16384 edges in 64 tiles of 256. Both outputs are one block, the whole 4096 by 128 array, whose index
never moves: the first point stores zeros, every point adds its tile's contribution, and the block is written back after
the last point only. So an entry of the final array is the sum over the 64 tiles of the tile's sum over its 256 edges,
which is one sum over all 16384 edges: addition of extended reals is associative and commutative, nothing else is used. -/

noncomputable section

namespace Cert.KernelIdeal.Named

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

open Idealize.ShloMosaic.ValueIdx
open scoped BigOperators

theorem hz2 : (![0, 0] : Fin 2 → Nat) = fun _ => 0 := funext fun a => by fin_cases a <;> rfl

/-! ## What one grid point leaves in the two accumulators -/

section Pieces
variable {F : FTy → Type} [FloatOps F]

/-- The first point: the zero block, then the tile's contribution added to it. -/
theorem out_A_3 (c : Dev nD) (i : grid0.Coords) (a1 : Memref sig .tc .vmem S256x4096 .f32) (h1 : a1.IsWhole) (a2 : Memref sig .tc .vmem S256x4096 .f32) (h2 : a2.IsWhole) (a3 : Memref sig .tc .vmem S4096x128 .f32) (h3 : a3.IsWhole) (a4 : Memref sig .tc .vmem S4096x128 .f32) (h4 : a4.IsWhole) (a5 : Memref sig .tc .vmem S4096x128 .f32) (h5 : a5.IsWhole) (hc : cond0_0 i) (x0 x1 : Vec F S256x4096 .f32) (x2 : Vec F S4096x128 .f32) :
    out0_A_3 c i a1 h1 a2 h2 a3 h3 a4 h4 a5 h5 hc x0 x1 x2 = k0_pay6 x0 x1 x2 (k0_pay1 (F := F)) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S4096x128) hz2, View.readCov_unit_zero (S := S4096x128) _ hz2]
  simp only [View.readAt_eq_ld, h1.read_unread, h2.read_unread, h3.read_unread,
    View.ld_unit_zero (S := S256x4096) hz2, View.ld_unit_zero (S := S4096x128) hz2]

theorem out_A_4 (c : Dev nD) (i : grid0.Coords) (a1 : Memref sig .tc .vmem S256x4096 .f32) (h1 : a1.IsWhole) (a2 : Memref sig .tc .vmem S256x4096 .f32) (h2 : a2.IsWhole) (a3 : Memref sig .tc .vmem S4096x128 .f32) (h3 : a3.IsWhole) (a4 : Memref sig .tc .vmem S4096x128 .f32) (h4 : a4.IsWhole) (a5 : Memref sig .tc .vmem S4096x128 .f32) (h5 : a5.IsWhole) (hc : cond0_0 i) (x0 x1 : Vec F S256x4096 .f32) (x2 : Vec F S4096x128 .f32) :
    out0_A_4 c i a1 h1 a2 h2 a3 h3 a4 h4 a5 h5 hc x0 x1 x2 = k0_pay7 x0 x1 x2 (k0_pay2 (F := F)) := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S4096x128) hz2, View.readCov_unit_zero (S := S4096x128) _ hz2]
  simp only [View.readAt_eq_ld, h1.read_unread, h2.read_unread, h3.read_unread,
    View.ld_unit_zero (S := S256x4096) hz2, View.ld_unit_zero (S := S4096x128) hz2]

/-- Every later point: the tile's contribution added to what the point before left. -/
theorem out_B_3 (c : Dev nD) (i : grid0.Coords) (a1 : Memref sig .tc .vmem S256x4096 .f32) (h1 : a1.IsWhole) (a2 : Memref sig .tc .vmem S256x4096 .f32) (h2 : a2.IsWhole) (a3 : Memref sig .tc .vmem S4096x128 .f32) (h3 : a3.IsWhole) (a4 : Memref sig .tc .vmem S4096x128 .f32) (h4 : a4.IsWhole) (a5 : Memref sig .tc .vmem S4096x128 .f32) (h5 : a5.IsWhole) (hc : ¬cond0_0 i) (x0 x1 : Vec F S256x4096 .f32) (x2 xo3 xo4 : Vec F S4096x128 .f32) :
    out0_B_3 c i a1 h1 a2 h2 a3 h3 a4 h4 a5 h5 hc x0 x1 x2 xo3 xo4 = k0_pay6 x0 x1 x2 xo3 := by
  unfold out0_B_3
  rw [View.read_writes_eq_canon _ _ _ (cover0_B_3 c i a1 h1 a2 h2 a3 h3 a4 h4 a5 h5 hc x0 x1 x2 xo3 xo4)]
  unfold kernelRun0_B
  dsimp only
  rw [View.canon_unit_zero hz2]
  simp only [View.readAt_eq_ld, h1.read_unread, h2.read_unread, h3.read_unread, h4.read_unread,
    View.ld_unit_zero (S := S256x4096) hz2, View.ld_unit_zero (S := S4096x128) hz2]

theorem out_B_4 (c : Dev nD) (i : grid0.Coords) (a1 : Memref sig .tc .vmem S256x4096 .f32) (h1 : a1.IsWhole) (a2 : Memref sig .tc .vmem S256x4096 .f32) (h2 : a2.IsWhole) (a3 : Memref sig .tc .vmem S4096x128 .f32) (h3 : a3.IsWhole) (a4 : Memref sig .tc .vmem S4096x128 .f32) (h4 : a4.IsWhole) (a5 : Memref sig .tc .vmem S4096x128 .f32) (h5 : a5.IsWhole) (hc : ¬cond0_0 i) (x0 x1 : Vec F S256x4096 .f32) (x2 xo3 xo4 : Vec F S4096x128 .f32) :
    out0_B_4 c i a1 h1 a2 h2 a3 h3 a4 h4 a5 h5 hc x0 x1 x2 xo3 xo4 = k0_pay7 x0 x1 x2 xo4 := by
  unfold out0_B_4
  rw [View.read_writes_eq_canon _ _ _ (cover0_B_4 c i a1 h1 a2 h2 a3 h3 a4 h4 a5 h5 hc x0 x1 x2 xo3 xo4)]
  unfold kernelRun0_B
  dsimp only
  rw [View.canon_unit_zero hz2]
  simp only [View.readAt_eq_ld, h1.read_unread, h2.read_unread, h3.read_unread, h5.read_unread,
    View.ld_unit_zero (S := S256x4096) hz2, View.ld_unit_zero (S := S4096x128) hz2]

end Pieces

end Cert.KernelIdeal.Named

end
-- ==== Proof.Region0Sum.lean ====
import proofs.«143709_j72344429134238_1_alg».proof.Proof.Region0

set_option maxRecDepth 16384

/-! # The first region: the accumulators after every point, and the final arrays

After point `n` an accumulator holds the sum of the contributions of tiles `0 … n`; after the last point that is the
sum over all 64 tiles, and the one write-back puts it into the array. -/

noncomputable section

namespace Cert.KernelIdeal.Named

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

open Idealize.ShloMosaic.ValueIdx
open scoped BigOperators

variable (V : (c : Dev nD) → (b : Ref sig .tc) → Buf (Elt Ideal) ((c : Thread nD τ).loc b))

/-- The three input blocks of a point, at their literal shapes: a 256-edge tile of each incidence matrix, and the
    scaled features whole. -/
abbrev roBlk (c : Dev nD) (t : Fin cfg0.N) : Vec Ideal S256x4096 .f32 := iblk0 V c 0 t
abbrev riBlk (c : Dev nD) (t : Fin cfg0.N) : Vec Ideal S256x4096 .f32 := iblk0 V c 1 t
abbrev ehBlk (c : Dev nD) (t : Fin cfg0.N) : Vec Ideal S4096x128 .f32 := iblk0 V c 2 t

/-- Tile `t`'s contribution to entry `(a, d)` of the first aggregate: over the tile's edges `r`, the second matrix's
    entry `(r, a)` times row `r` of the first matrix times the scaled features. -/
def term3 (c : Dev nD) (t : Fin cfg0.N) (a : Fin 4096) (d : Fin 128) : EReal :=
  ∑ r : Fin 256, riBlk V c t (ix2 r a) * ∑ k : Fin 4096, roBlk V c t (ix2 r k) * ehBlk V c t (ix2 k d)

/-- The same for the second aggregate, the two matrices exchanged. -/
def term4 (c : Dev nD) (t : Fin cfg0.N) (a : Fin 4096) (d : Fin 128) : EReal :=
  ∑ r : Fin 256, roBlk V c t (ix2 r a) * ∑ k : Fin 4096, riBlk V c t (ix2 r k) * ehBlk V c t (ix2 k d)

/-- After point `n` each accumulator holds the sum of the contributions of tiles `0 … n`: by induction on the point. -/
theorem outs_eq (c : Dev nD) : ∀ (n : ℕ) (h : n < cfg0.N) (a : Fin 4096) (d : Fin 128),
    (outsAt0 V c n h).1 (ix2 a d) = ∑ s : Fin (n + 1), term3 V c ⟨s.val, Nat.lt_of_lt_of_le s.isLt h⟩ a d
    ∧ (outsAt0 V c n h).2 (ix2 a d) = ∑ s : Fin (n + 1), term4 V c ⟨s.val, Nat.lt_of_lt_of_le s.isLt h⟩ a d
  | 0, h, a, d => by
    have e : outsAt0 V c 0 h = _ := outsAt0_A V c ⟨0, h⟩ rfl
    rw [e]
    dsimp only
    rw [out_A_3, out_A_4, Fin.sum_univ_one, Fin.sum_univ_one]
    constructor
    · refine (EdgePay.acc3 (roBlk V c ⟨0, h⟩) (riBlk V c ⟨0, h⟩) (ehBlk V c ⟨0, h⟩) (k0_pay1 (F := Ideal)) a d).trans ?_
      rw [EdgePay.zero3, zero_add]
      rfl
    · refine (EdgePay.acc4 (roBlk V c ⟨0, h⟩) (riBlk V c ⟨0, h⟩) (ehBlk V c ⟨0, h⟩) (k0_pay2 (F := Ideal)) a d).trans ?_
      rw [EdgePay.zero4, zero_add]
      rfl
  | n + 1, h, a, d => by
    have hN : cfg0.N = 64 := N_0
    have hB : ¬(⟨n + 1, h⟩ : Fin cfg0.N).val % 64 = 0 := by dsimp only; omega
    have ih := outs_eq c n (Nat.lt_of_succ_lt h) a d
    have e : outsAt0 V c (n + 1) h = _ := outsAt0_B V c ⟨n + 1, h⟩ hB
    rw [e]
    dsimp only
    rw [out_B_3, out_B_4]
    constructor
    · rw [Fin.sum_univ_castSucc]
      refine (EdgePay.acc3 (roBlk V c ⟨n + 1, h⟩) (riBlk V c ⟨n + 1, h⟩) (ehBlk V c ⟨n + 1, h⟩)
        (outsAt0 V c n (Nat.lt_of_succ_lt h)).1 a d).trans ?_
      rw [ih.1]
      rfl
    · rw [Fin.sum_univ_castSucc]
      refine (EdgePay.acc4 (roBlk V c ⟨n + 1, h⟩) (riBlk V c ⟨n + 1, h⟩) (ehBlk V c ⟨n + 1, h⟩)
        (outsAt0 V c n (Nat.lt_of_succ_lt h)).2 a d).trans ?_
      rw [ih.2]
      rfl

end Cert.KernelIdeal.Named

end
-- ==== Proof.Region0Arr.lean ====
import proofs.«143709_j72344429134238_1_alg».proof.Proof.Region0Sum

set_option maxRecDepth 16384

/-! # The first region: the two aggregates as functions of the region's arrays

Tile `t` holds edges `256 t … 256 t + 255`. The sum over the 64 tiles of the sums over a tile's 256 edges is the sum
over the 16384 edges. -/

noncomputable section

namespace Cert.KernelIdeal.Named

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

open Idealize.ShloMosaic.ValueIdx
open scoped BigOperators

variable (V : (c : Dev nD) → (b : Ref sig .tc) → Buf (Elt Ideal) ((c : Thread nD τ).loc b))

/-- The last grid point. -/
def t63 : Fin cfg0.N := ⟨63, by rw [show cfg0.N = 64 from N_0]; decide⟩

/-- The accumulators after the last point, as contents of the two result arrays. -/
abbrev acc3 (c : Dev nD) : Buf (Elt Ideal) ((c : Thread nD τ).loc main_v3_0) := (outsAt0 V c 63 t63.isLt).1
abbrev acc4 (c : Dev nD) : Buf (Elt Ideal) ((c : Thread nD τ).loc main_v3_1) := (outsAt0 V c 63 t63.isLt).2

/-- The one write-back of the first aggregate, after the last point, writes the accumulator: its block is the whole array. -/
theorem flushed3 (c : Dev nD) (t : Fin cfg0.N) (hf : (cfg0.win 3).flush t = true) :
    (dat0 V c).flushed 3 t = ((cfg0.win 3).blk t).view.read (Elt Ideal) (acc3 V c) := by
  have hN : cfg0.N = 64 := N_0
  have h63 : t.val = 63 := by have := (flush0_3 t).mp hf; have := t.isLt; omega
  obtain rfl : t = t63 := Fin.ext h63
  show (cfg0.win 3).cut (grid0.coords t63) ((dat0 V c).after 3 t63) = _
  rw [after0_3]
  have hz' : (fun a => win0_3.index t63 a * main_v3_0.ty.shape.size a) = fun _ => 0 := funext fun a => by fin_cases a <;> decide
  exact (Memref.read_access_unit_zero (Elt Ideal) main_v3_0 hz' (fun a => by rw [congrFun hz' a]; simp) (acc3 V c)).symm

/-- So the first aggregate ends at the accumulator after the last point: that point's block covers every entry. -/
theorem arr3 (c : Dev nD) : (dat0 V c).arrAt 3 cfg0.N = acc3 V c :=
  (dat0 V c).arrAt_eq_of_cover 3 (acc3 V c) (flushed3 V c) fun i =>
    ⟨t63, (flush0_3 t63).mpr rfl, by
      show i ∈ ((View.whole main_v3_0).slice (win0_3.rect t63)).set
      rw [View.set_slice_whole, Rect.mem_set_unit]
      intro a
      have h0 : (i 0 : Nat) < 4096 := (i 0).isLt
      have h1 : (i 1 : Nat) < 128 := (i 1).isLt
      match a with
      | ⟨0, _⟩ =>
        show win0_3.index t63 0 * win0_3.size 0 ≤ (i 0 : Nat) ∧ (i 0 : Nat) < win0_3.index t63 0 * win0_3.size 0 + win0_3.xsize (grid0.coords t63) 0
        rw [show win0_3.index t63 0 * win0_3.size 0 = 0 from by decide +kernel, show win0_3.xsize (grid0.coords t63) 0 = 4096 from by decide +kernel]
        omega
      | ⟨1, _⟩ =>
        show win0_3.index t63 1 * win0_3.size 1 ≤ (i 1 : Nat) ∧ (i 1 : Nat) < win0_3.index t63 1 * win0_3.size 1 + win0_3.xsize (grid0.coords t63) 1
        rw [show win0_3.index t63 1 * win0_3.size 1 = 0 from by decide +kernel, show win0_3.xsize (grid0.coords t63) 1 = 128 from by decide +kernel]
        omega⟩

/-- The one write-back of the second aggregate, after the last point, writes the accumulator: its block is the whole array. -/
theorem flushed4 (c : Dev nD) (t : Fin cfg0.N) (hf : (cfg0.win 4).flush t = true) :
    (dat0 V c).flushed 4 t = ((cfg0.win 4).blk t).view.read (Elt Ideal) (acc4 V c) := by
  have hN : cfg0.N = 64 := N_0
  have h63 : t.val = 63 := by have := (flush0_4 t).mp hf; have := t.isLt; omega
  obtain rfl : t = t63 := Fin.ext h63
  show (cfg0.win 4).cut (grid0.coords t63) ((dat0 V c).after 4 t63) = _
  rw [after0_4]
  have hz' : (fun a => win0_4.index t63 a * main_v3_1.ty.shape.size a) = fun _ => 0 := funext fun a => by fin_cases a <;> decide
  exact (Memref.read_access_unit_zero (Elt Ideal) main_v3_1 hz' (fun a => by rw [congrFun hz' a]; simp) (acc4 V c)).symm

/-- So the second aggregate ends at the accumulator after the last point: that point's block covers every entry. -/
theorem arr4 (c : Dev nD) : (dat0 V c).arrAt 4 cfg0.N = acc4 V c :=
  (dat0 V c).arrAt_eq_of_cover 4 (acc4 V c) (flushed4 V c) fun i =>
    ⟨t63, (flush0_4 t63).mpr rfl, by
      show i ∈ ((View.whole main_v3_1).slice (win0_4.rect t63)).set
      rw [View.set_slice_whole, Rect.mem_set_unit]
      intro a
      have h0 : (i 0 : Nat) < 4096 := (i 0).isLt
      have h1 : (i 1 : Nat) < 128 := (i 1).isLt
      match a with
      | ⟨0, _⟩ =>
        show win0_4.index t63 0 * win0_4.size 0 ≤ (i 0 : Nat) ∧ (i 0 : Nat) < win0_4.index t63 0 * win0_4.size 0 + win0_4.xsize (grid0.coords t63) 0
        rw [show win0_4.index t63 0 * win0_4.size 0 = 0 from by decide +kernel, show win0_4.xsize (grid0.coords t63) 0 = 4096 from by decide +kernel]
        omega
      | ⟨1, _⟩ =>
        show win0_4.index t63 1 * win0_4.size 1 ≤ (i 1 : Nat) ∧ (i 1 : Nat) < win0_4.index t63 1 * win0_4.size 1 + win0_4.xsize (grid0.coords t63) 1
        rw [show win0_4.index t63 1 * win0_4.size 1 = 0 from by decide +kernel, show win0_4.xsize (grid0.coords t63) 1 = 128 from by decide +kernel]
        omega⟩

/-! ## The blocks, read off the arrays the region finds -/

/-- The region's three input arrays at their literal shapes. -/
abbrev roArr (c : Dev nD) : Vec Ideal S16384x4096 .f32 := V c main_arg1
abbrev riArr (c : Dev nD) : Vec Ideal S16384x4096 .f32 := V c main_arg2
abbrev ehArr (c : Dev nD) : Vec Ideal S4096x128 .f32 := V c main_v2

theorem tile_lt (t : Fin cfg0.N) (r : Fin 256) : 256 * t.val + r.val < 16384 := by
  have h1 := t.isLt
  have hN : cfg0.N = 64 := N_0
  have h2 := r.isLt
  omega

/-- Row `r` of tile `t` of an incidence matrix is row `256 t + r` of the matrix. -/
theorem roBlk_apply (c : Dev nD) (t : Fin cfg0.N) (r : Fin 256) (k : Fin 4096) :
    roBlk V c t (ix2 r k) = roArr V c (ix2 ⟨256 * t.val + r.val, tile_lt t r⟩ k) := by
  have hi : win0_0.index t 0 = t.val ∧ win0_0.index t 1 = 0 :=
    (by decide +kernel : ∀ t : Fin grid0.N, win0_0.index t 0 = t.val ∧ win0_0.index t 1 = 0) t
  show ((cfg0.win 0).blk t).view.read (Elt Ideal) (V c (Pipeline.arrRef spec0 0)) (ix2 r k) = _
  rw [View.read_apply]
  show V c main_arg1 _ = V c main_arg1 _
  congr 1
  funext a
  apply Fin.ext
  match a with
  | ⟨0, _⟩ => show win0_0.index t 0 * 256 + 1 * r.val = 256 * t.val + r.val; rw [hi.1]; omega
  | ⟨1, _⟩ => show win0_0.index t 1 * 4096 + 1 * k.val = k.val; rw [hi.2]; omega

theorem riBlk_apply (c : Dev nD) (t : Fin cfg0.N) (r : Fin 256) (k : Fin 4096) :
    riBlk V c t (ix2 r k) = riArr V c (ix2 ⟨256 * t.val + r.val, tile_lt t r⟩ k) := by
  have hi : win0_1.index t 0 = t.val ∧ win0_1.index t 1 = 0 :=
    (by decide +kernel : ∀ t : Fin grid0.N, win0_1.index t 0 = t.val ∧ win0_1.index t 1 = 0) t
  show ((cfg0.win 1).blk t).view.read (Elt Ideal) (V c (Pipeline.arrRef spec0 1)) (ix2 r k) = _
  rw [View.read_apply]
  show V c main_arg2 _ = V c main_arg2 _
  congr 1
  funext a
  apply Fin.ext
  match a with
  | ⟨0, _⟩ => show win0_1.index t 0 * 256 + 1 * r.val = 256 * t.val + r.val; rw [hi.1]; omega
  | ⟨1, _⟩ => show win0_1.index t 1 * 4096 + 1 * k.val = k.val; rw [hi.2]; omega

/-- The scaled features are staged whole at every point. -/
theorem ehBlk_apply (c : Dev nD) (t : Fin cfg0.N) (k : Fin 4096) (d : Fin 128) :
    ehBlk V c t (ix2 k d) = ehArr V c (ix2 k d) := by
  have hi : win0_2.index t 0 = 0 ∧ win0_2.index t 1 = 0 :=
    (by decide +kernel : ∀ t : Fin grid0.N, win0_2.index t 0 = 0 ∧ win0_2.index t 1 = 0) t
  show ((cfg0.win 2).blk t).view.read (Elt Ideal) (V c (Pipeline.arrRef spec0 2)) (ix2 k d) = _
  rw [View.read_apply]
  show V c main_v2 _ = V c main_v2 _
  congr 1
  funext a
  apply Fin.ext
  match a with
  | ⟨0, _⟩ => show win0_2.index t 0 * 4096 + 1 * k.val = k.val; rw [hi.1]; omega
  | ⟨1, _⟩ => show win0_2.index t 1 * 128 + 1 * d.val = d.val; rw [hi.2]; omega

/-! ## The aggregates -/

/-- Entry `(a, d)` of the first aggregate: the sum over all edges. -/
theorem agg3 (c : Dev nD) (a : Fin 4096) (d : Fin 128) :
    (dat0 V c).arrAt 3 cfg0.N (ix2 a d)
      = Cert.Spec.agg (Cert.Spec.m2 (riArr V c)) (Cert.Spec.m2 (roArr V c)) (Cert.Spec.m2 (ehArr V c)) a d := by
  rw [arr3 V c]
  refine ((outs_eq V c 63 t63.isLt a d).1).trans ?_
  unfold Cert.Spec.agg
  rw [← Cert.LibSumBlocks.sum_blocks (A := 64) (B := 256) (N := 16384) rfl]
  refine Finset.sum_congr rfl fun s _ => ?_
  unfold term3
  refine Finset.sum_congr rfl fun r _ => ?_
  rw [riBlk_apply]
  refine congrArg _ (Finset.sum_congr rfl fun k _ => ?_)
  rw [roBlk_apply, ehBlk_apply]

/-- Entry `(a, d)` of the second aggregate: the same with the two matrices exchanged. -/
theorem agg4 (c : Dev nD) (a : Fin 4096) (d : Fin 128) :
    (dat0 V c).arrAt 4 cfg0.N (ix2 a d)
      = Cert.Spec.agg (Cert.Spec.m2 (roArr V c)) (Cert.Spec.m2 (riArr V c)) (Cert.Spec.m2 (ehArr V c)) a d := by
  rw [arr4 V c]
  refine ((outs_eq V c 63 t63.isLt a d).2).trans ?_
  unfold Cert.Spec.agg
  rw [← Cert.LibSumBlocks.sum_blocks (A := 64) (B := 256) (N := 16384) rfl]
  refine Finset.sum_congr rfl fun s _ => ?_
  unfold term4
  refine Finset.sum_congr rfl fun r _ => ?_
  rw [roBlk_apply]
  refine congrArg _ (Finset.sum_congr rfl fun k _ => ?_)
  rw [riBlk_apply, ehBlk_apply]

end Cert.KernelIdeal.Named

end
-- ==== Proof.MlpPayload.lean ====
import proofs.«143709_j72344429134238_1_alg».proof.Proof.Gen.KernelIdeal.Skeleton
import proofs.«143709_j72344429134238_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.MlpPay

open Cert.KernelIdeal Cert.KernelIdeal.Gen Idealize.ShloMosaic Idealize.ShloMosaic.ValueIdx
open scoped BigOperators

/-! ## A product of a matrix with K columns and one with K rows, one contracted axis -/

section Product
variable {M K N : ℕ}
  (d : DotDims (⟨2, ![M, K]⟩ : Shape) (⟨2, ![K, N]⟩ : Shape) (⟨2, ![M, N]⟩ : Shape))

/-- The left factor's row coordinate is the result's row coordinate. -/
theorem lhs_ax0 (hlb : d.lhsBatch = []) (hln : d.lhsNonContracting = [(0 : Fin 2)])
    (i : (⟨2, ![M, N]⟩ : Shape).Idx) (q : d.contr.Idx) : (d.lhsIdx i q (0 : Fin 2)).val = (i (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (i ⟨a, ha⟩).val = (i ⟨b, hb⟩).val :=
    fun a b ha hb h => by subst h; rfl
  exact key _ _ _ _ (by simp [hlb, hln])

/-- The right factor's column coordinate is the result's column coordinate. -/
theorem rhs_ax1 (hlb : d.lhsBatch = []) (hln : d.lhsNonContracting = [(0 : Fin 2)])
    (hrb : d.rhsBatch = []) (hrn : d.rhsNonContracting = [(1 : Fin 2)])
    (i : (⟨2, ![M, N]⟩ : Shape).Idx) (q : d.contr.Idx) : (d.rhsIdx i q (1 : Fin 2)).val = (i (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (i ⟨a, ha⟩).val = (i ⟨b, hb⟩).val :=
    fun a b ha hb h => by subst h; rfl
  exact key _ _ _ _ (by simp [hlb, hln, hrn])

/-- Entry (p, j) of the product accumulated from zero: the sum over k of x p k * w k j. -/
theorem matmul_row (hlb : d.lhsBatch = []) (hln : d.lhsNonContracting = [(0 : Fin 2)]) (hlc : d.lhsContracting = [(1 : Fin 2)])
    (hrb : d.rhsBatch = []) (hrn : d.rhsNonContracting = [(1 : Fin 2)]) (hrc : d.rhsContracting = [(0 : Fin 2)])
    {φ₁ φ₂ : FTy} (x : FVec Ideal (⟨2, ![M, K]⟩ : Shape) φ₁) (w : FVec Ideal (⟨2, ![K, N]⟩ : Shape) φ₂) (p : Fin M) (j : Fin N) :
    matmul d none x w (constant (F := Ideal) (⟨2, ![M, N]⟩ : Shape) .f32 0x00000000#32) (ix2 p j)
      = ∑ k : Fin K, x (ix2 p k) * w (ix2 k j) := by
  have hr : d.contr.rank = 1 := by rw [d.rank_contr, hlc]; rfl
  have hs : d.contr.size ⟨0, by omega⟩ = K := by
    have h0 : d.lhsContracting[0]'(by rw [hlc]; exact Nat.one_pos) = (1 : Fin 2) := by simp only [hlc]; rfl
    rw [d.size_contr 0 (by rw [hlc]; exact Nat.one_pos), h0]
    rfl
  refine (Ideal.matmul_constant_zero_apply d none x w (ix2 p j)).trans ?_
  rw [← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact lhs_ax0 d hlb hln _ _
    | ⟨1, _⟩ => exact (d.lhsIdx_val_of_single hlc _ _).trans hk)
  have er : d.rhsIdx (ix2 p j) ((contrEquiv1 d K hr hs).symm k) = ix2 k j := funext fun a => Fin.ext (by
    match a with
    | ⟨0, _⟩ => exact (d.rhsIdx_val_of_single hrc _ _).trans hk
    | ⟨1, _⟩ => exact rhs_ax1 d hlb hln hrb hrn _ _)
  rw [el, er]

end Product

/-! ## One row through a dense layer -/

section Layer
variable {M K N : ℕ}
  (d : DotDims (⟨2, ![M, K]⟩ : Shape) (⟨2, ![K, N]⟩ : Shape) (⟨2, ![M, N]⟩ : Shape))

/-- Row p of the product of the narrowed factors: narrowing changes no entry, so it is the sum over k of
    (row p of x) k * w k j. -/
theorem prod_row (hlb : d.lhsBatch = []) (hln : d.lhsNonContracting = [(0 : Fin 2)]) (hlc : d.lhsContracting = [(1 : Fin 2)])
    (hrb : d.rhsBatch = []) (hrn : d.rhsNonContracting = [(1 : Fin 2)]) (hrc : d.rhsContracting = [(0 : Fin 2)])
    (x : FVec Ideal (⟨2, ![M, K]⟩ : Shape) .f32) (w : FVec Ideal (⟨2, ![K, N]⟩ : Shape) .f32)
    (hx hw : FTy.bits .bf16 < FTy.bits .f32)
    (p : Fin M) (r : Fin K → EReal) (hr : ∀ k, x (ix2 p k) = r k) (j : Fin N) :
    matmul d none (truncf .bf16 x hx) (truncf .bf16 w hw) (constant (F := Ideal) (⟨2, ![M, N]⟩ : Shape) .f32 0x00000000#32) (ix2 p j)
      = ∑ k : Fin K, r k * Cert.Spec.m2 w k j := by
  rw [matmul_row d hlb hln hlc hrb hrn hrc (truncf .bf16 x hx) (truncf .bf16 w hw) p j]
  refine Finset.sum_congr rfl fun k _ => ?_
  rw [← hr k]
  rfl

/-- Row p of x w + b, the bias row b repeated over the rows. -/
theorem affine_row (hlb : d.lhsBatch = []) (hln : d.lhsNonContracting = [(0 : Fin 2)]) (hlc : d.lhsContracting = [(1 : Fin 2)])
    (hrb : d.rhsBatch = []) (hrn : d.rhsNonContracting = [(1 : Fin 2)]) (hrc : d.rhsContracting = [(0 : Fin 2)])
    (x : FVec Ideal (⟨2, ![M, K]⟩ : Shape) .f32) (w : FVec Ideal (⟨2, ![K, N]⟩ : Shape) .f32)
    (b : FVec Ideal (⟨2, ![1, N]⟩ : Shape) .f32) (hx hw : FTy.bits .bf16 < FTy.bits .f32)
    (hs : (⟨2, ![1, N]⟩ : Shape).ShapeCasts ⟨2, ![1, N]⟩) (hb : (⟨2, ![1, N]⟩ : Shape).Broadcasts ⟨2, ![M, N]⟩)
    (p : Fin M) (r : Fin K → EReal) (hr : ∀ k, x (ix2 p k) = r k) (j : Fin N) :
    addf (matmul d none (truncf .bf16 x hx) (truncf .bf16 w hw) (constant (F := Ideal) (⟨2, ![M, N]⟩ : Shape) .f32 0x00000000#32))
        (broadcastTo (⟨2, ![M, N]⟩ : Shape) (shapeCast (⟨2, ![1, N]⟩ : Shape) b hs) hb) (ix2 p j)
      = Cert.Spec.affine r (Cert.Spec.m2 w) (fun j => b (ix2 (0 : Fin 1) j)) j := by
  refine (addf_apply _ _ _).trans ?_
  rw [prod_row d hlb hln hlc hrb hrn hrc x w hx hw p r hr j, shapeCast_self, broadcastTo_1b_ab_apply]
  rfl

/-- A tanh layer's row. -/
theorem hidden_row (hlb : d.lhsBatch = []) (hln : d.lhsNonContracting = [(0 : Fin 2)]) (hlc : d.lhsContracting = [(1 : Fin 2)])
    (hrb : d.rhsBatch = []) (hrn : d.rhsNonContracting = [(1 : Fin 2)]) (hrc : d.rhsContracting = [(0 : Fin 2)])
    (x : FVec Ideal (⟨2, ![M, K]⟩ : Shape) .f32) (w : FVec Ideal (⟨2, ![K, N]⟩ : Shape) .f32)
    (b : FVec Ideal (⟨2, ![1, N]⟩ : Shape) .f32) (hx hw : FTy.bits .bf16 < FTy.bits .f32)
    (hs : (⟨2, ![1, N]⟩ : Shape).ShapeCasts ⟨2, ![1, N]⟩) (hb : (⟨2, ![1, N]⟩ : Shape).Broadcasts ⟨2, ![M, N]⟩)
    (p : Fin M) (r : Fin K → EReal) (hr : ∀ k, x (ix2 p k) = r k) (j : Fin N) :
    tanh (addf (matmul d none (truncf .bf16 x hx) (truncf .bf16 w hw) (constant (F := Ideal) (⟨2, ![M, N]⟩ : Shape) .f32 0x00000000#32))
        (broadcastTo (⟨2, ![M, N]⟩ : Shape) (shapeCast (⟨2, ![1, N]⟩ : Shape) b hs) hb)) (ix2 p j)
      = Cert.Spec.hidden r (Cert.Spec.m2 w) (fun j => b (ix2 (0 : Fin 1) j)) j :=
  congrArg Ideal.tanh (affine_row d hlb hln hlc hrb hrn hrc x w b hx hw hs hb p r hr j)

/-- The logistic layer's row. -/
theorem logistic_row (hlb : d.lhsBatch = []) (hln : d.lhsNonContracting = [(0 : Fin 2)]) (hlc : d.lhsContracting = [(1 : Fin 2)])
    (hrb : d.rhsBatch = []) (hrn : d.rhsNonContracting = [(1 : Fin 2)]) (hrc : d.rhsContracting = [(0 : Fin 2)])
    (x : FVec Ideal (⟨2, ![M, K]⟩ : Shape) .f32) (w : FVec Ideal (⟨2, ![K, N]⟩ : Shape) .f32)
    (b : FVec Ideal (⟨2, ![1, N]⟩ : Shape) .f32) (hx hw : FTy.bits .bf16 < FTy.bits .f32)
    (hs : (⟨2, ![1, N]⟩ : Shape).ShapeCasts ⟨2, ![1, N]⟩) (hb : (⟨2, ![1, N]⟩ : Shape).Broadcasts ⟨2, ![M, N]⟩)
    (p : Fin M) (r : Fin K → EReal) (hr : ∀ k, x (ix2 p k) = r k) (j : Fin N) :
    logistic (addf (matmul d none (truncf .bf16 x hx) (truncf .bf16 w hw) (constant (F := Ideal) (⟨2, ![M, N]⟩ : Shape) .f32 0x00000000#32))
        (broadcastTo (⟨2, ![M, N]⟩ : Shape) (shapeCast (⟨2, ![1, N]⟩ : Shape) b hs) hb)) (ix2 p j)
      = Ideal.logistic (Cert.Spec.affine r (Cert.Spec.m2 w) (fun j => b (ix2 (0 : Fin 1) j)) j) :=
  congrArg Ideal.logistic (affine_row d hlb hln hlc hrb hrn hrc x w b hx hw hs hb p r hr j)

end Layer

/-- The first layer's row: three products, of the three 128-wide inputs each with its own 128 rows of the weights, added
    left to right, then the bias row, then tanh. -/
theorem first_row {M : ℕ} (d : DotDims (⟨2, ![M, 128]⟩ : Shape) (⟨2, ![128, 1024]⟩ : Shape) (⟨2, ![M, 1024]⟩ : Shape))
    (hlb : d.lhsBatch = []) (hln : d.lhsNonContracting = [(0 : Fin 2)]) (hlc : d.lhsContracting = [(1 : Fin 2)])
    (hrb : d.rhsBatch = []) (hrn : d.rhsNonContracting = [(1 : Fin 2)]) (hrc : d.rhsContracting = [(0 : Fin 2)])
    (xa xb xc : FVec Ideal (⟨2, ![M, 128]⟩ : Shape) .f32) (wa wb wc : FVec Ideal (⟨2, ![128, 1024]⟩ : Shape) .f32)
    (b : FVec Ideal (⟨2, ![1, 1024]⟩ : Shape) .f32) (hxa hxb hxc hwa hwb hwc : FTy.bits .bf16 < FTy.bits .f32)
    (hs : (⟨2, ![1, 1024]⟩ : Shape).ShapeCasts ⟨2, ![1, 1024]⟩) (hb : (⟨2, ![1, 1024]⟩ : Shape).Broadcasts ⟨2, ![M, 1024]⟩)
    (p : Fin M) (ra rb rc : Fin 128 → EReal) (hra : ∀ k, xa (ix2 p k) = ra k) (hrb' : ∀ k, xb (ix2 p k) = rb k)
    (hrc' : ∀ k, xc (ix2 p k) = rc k) (j : Fin 1024) :
    tanh (addf (addf (addf
          (matmul d none (truncf .bf16 xa hxa) (truncf .bf16 wa hwa) (constant (F := Ideal) (⟨2, ![M, 1024]⟩ : Shape) .f32 0x00000000#32))
          (matmul d none (truncf .bf16 xb hxb) (truncf .bf16 wb hwb) (constant (F := Ideal) (⟨2, ![M, 1024]⟩ : Shape) .f32 0x00000000#32)))
          (matmul d none (truncf .bf16 xc hxc) (truncf .bf16 wc hwc) (constant (F := Ideal) (⟨2, ![M, 1024]⟩ : Shape) .f32 0x00000000#32)))
        (broadcastTo (⟨2, ![M, 1024]⟩ : Shape) (shapeCast (⟨2, ![1, 1024]⟩ : Shape) b hs) hb)) (ix2 p j)
      = Cert.Spec.firstSplit ra rb rc (Cert.Spec.m2 wa) (Cert.Spec.m2 wb) (Cert.Spec.m2 wc) (fun j => b (ix2 (0 : Fin 1) j)) j := by
  unfold Cert.Spec.firstSplit
  refine congrArg Ideal.tanh ?_
  refine (addf_apply _ _ _).trans ?_
  rw [shapeCast_self, broadcastTo_1b_ab_apply]
  refine congrArg (· + b (ix2 (0 : Fin 1) j)) ?_
  refine (addf_apply _ _ _).trans ?_
  rw [prod_row d hlb hln hlc hrb hrn hrc xc wc hxc hwc p rc hrc' j]
  refine congrArg (· + ∑ k : Fin 128, rc k * Cert.Spec.m2 wc k j) ?_
  refine (addf_apply _ _ _).trans ?_
  rw [prod_row d hlb hln hlc hrb hrn hrc xa wa hxa hwa p ra hra j, prod_row d hlb hln hlc hrb hrn hrc xb wb hxb hwb p rb hrb' j]

/-- Row `p` of what a grid point of the second kernel stores: the perceptron of row `p` of its three 512 by 128 input
    blocks, the first layer's weights as the three 128-row pieces the body loads. -/
theorem row_eq (v0 v3 v5 : Vec Ideal S512x128 .f32) (v8 v10 v12 : Vec Ideal S128x1024 .f32) (v19 : Vec Ideal S1x1024 .f32)
    (v25 : Vec Ideal S1024x1024 .f32) (v28 : Vec Ideal S1x1024 .f32) (v34 : Vec Ideal S1024x512 .f32) (v37 : Vec Ideal S1x512 .f32)
    (v43 : Vec Ideal S512x256 .f32) (v46 : Vec Ideal S1x256 .f32) (v52 : Vec Ideal S256x1 .f32) (v55 : Vec Ideal S1x1 .f32)
    (p : Fin 512) (q : Fin 1) :
    k1_pay1 (F := Ideal) (k1_pay2 (F := Ideal) v0 v3 v5 v8 v10 v12 v19 v25 v28) v34 v37 v43 v46 v52 v55 (ix2 p q)
      = Cert.Spec.rowSplit (fun k => v0 (ix2 p k)) (fun k => v3 (ix2 p k)) (fun k => v5 (ix2 p k))
          (Cert.Spec.m2 v8) (Cert.Spec.m2 v10) (Cert.Spec.m2 v12) (fun j => v19 (ix2 0 j))
          (Cert.Spec.m2 v25) (fun j => v28 (ix2 0 j)) (Cert.Spec.m2 v34) (fun j => v37 (ix2 0 j))
          (Cert.Spec.m2 v43) (fun j => v46 (ix2 0 j)) (Cert.Spec.m2 v52) (fun j => v55 (ix2 0 j)) := by
  obtain rfl : q = 0 := Subsingleton.elim q 0
  unfold k1_pay1 k1_pay2 Cert.Spec.rowSplit Cert.Spec.tail
  dsimp only
  refine logistic_row _ rfl rfl rfl rfl rfl rfl _ v52 v55 _ _ _ _ p _ (fun k => ?_) 0
  refine hidden_row _ rfl rfl rfl rfl rfl rfl _ v43 v46 _ _ _ _ p _ (fun k => ?_) k
  refine hidden_row _ rfl rfl rfl rfl rfl rfl _ v34 v37 _ _ _ _ p _ (fun k => ?_) k
  refine hidden_row _ rfl rfl rfl rfl rfl rfl _ v25 v28 _ _ _ _ p _ (fun k => ?_) k
  refine first_row _ rfl rfl rfl rfl rfl rfl _ v3 _ v8 v10 v12 v19 _ _ _ _ _ _ _ _ p _ _ _ (fun k => ?_) (fun k => rfl) (fun k => ?_) k
  · exact congrFun (shapeCast_self v0 _) (ix2 p k)
  · exact congrFun (shapeCast_self v5 _) (ix2 p k)

end Cert.KernelIdeal.MlpPay

end
-- ==== Proof.Region1.lean ====
import proofs.«143709_j72344429134238_1_alg».proof.Proof.Gen.KernelIdeal.Frame
import proofs.«143709_j72344429134238_1_alg».proof.Proof.MlpPayload
import proofs.«143709_j72344429134238_1_alg».proof.Proof.Spec
import Idealize.ShloMosaic.Lib.Pipeline.Value
import Idealize.ShloMosaic.Lib.Tactic

set_option maxRecDepth 16384

/-! # The second region: the perceptron, 512 nodes at a grid point

Point `t` of 8 stages rows `512 t … 512 t + 511` of the two aggregates and of the features, and the weights and biases
whole; it writes back rows `512 t … 512 t + 511` of the 4096 by 1 result. Each row of the result depends on the same
row of the three inputs only, so the eight blocks are the eight pieces of one function of the region's arrays. -/

noncomputable section

namespace Cert.KernelIdeal.Named

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

open Idealize.ShloMosaic.ValueIdx
open scoped BigOperators

variable (V : (c : Dev nD) → (b : Ref sig .tc) → Buf (Elt Ideal) ((c : Thread nD τ).loc b))

theorem hz1 : (![0, 0] : Fin 2 → Nat) = fun _ => 0 := funext fun a => by fin_cases a <;> rfl

/-! ## The region's arrays and a point's blocks, at their literal shapes -/

abbrev hoArr (c : Dev nD) : Vec Ideal S4096x128 .f32 := V c main_v3_0
abbrev hArr (c : Dev nD) : Vec Ideal S4096x128 .f32 := V c main_arg0
abbrev hiArr (c : Dev nD) : Vec Ideal S4096x128 .f32 := V c main_v3_1
abbrev w1Arr (c : Dev nD) : Vec Ideal S384x1024 .f32 := V c main_arg4
abbrev b1Arr (c : Dev nD) : Vec Ideal S1x1024 .f32 := V c main_v4
abbrev w2Arr (c : Dev nD) : Vec Ideal S1024x1024 .f32 := V c main_arg6
abbrev b2Arr (c : Dev nD) : Vec Ideal S1x1024 .f32 := V c main_v5
abbrev w3Arr (c : Dev nD) : Vec Ideal S1024x512 .f32 := V c main_arg8
abbrev b3Arr (c : Dev nD) : Vec Ideal S1x512 .f32 := V c main_v6
abbrev w4Arr (c : Dev nD) : Vec Ideal S512x256 .f32 := V c main_arg10
abbrev b4Arr (c : Dev nD) : Vec Ideal S1x256 .f32 := V c main_v7
abbrev w5Arr (c : Dev nD) : Vec Ideal S256x1 .f32 := V c main_arg12
abbrev b5Arr (c : Dev nD) : Vec Ideal S1x1 .f32 := V c main_v8

abbrev hoBlk (c : Dev nD) (t : Fin cfg1.N) : Vec Ideal S512x128 .f32 := iblk1 V c 0 t
abbrev hBlk (c : Dev nD) (t : Fin cfg1.N) : Vec Ideal S512x128 .f32 := iblk1 V c 1 t
abbrev hiBlk (c : Dev nD) (t : Fin cfg1.N) : Vec Ideal S512x128 .f32 := iblk1 V c 2 t
abbrev w1Blk (c : Dev nD) (t : Fin cfg1.N) : Vec Ideal S384x1024 .f32 := iblk1 V c 3 t
abbrev b1Blk (c : Dev nD) (t : Fin cfg1.N) : Vec Ideal S1x1024 .f32 := iblk1 V c 4 t
abbrev w2Blk (c : Dev nD) (t : Fin cfg1.N) : Vec Ideal S1024x1024 .f32 := iblk1 V c 5 t
abbrev b2Blk (c : Dev nD) (t : Fin cfg1.N) : Vec Ideal S1x1024 .f32 := iblk1 V c 6 t
abbrev w3Blk (c : Dev nD) (t : Fin cfg1.N) : Vec Ideal S1024x512 .f32 := iblk1 V c 7 t
abbrev b3Blk (c : Dev nD) (t : Fin cfg1.N) : Vec Ideal S1x512 .f32 := iblk1 V c 8 t
abbrev w4Blk (c : Dev nD) (t : Fin cfg1.N) : Vec Ideal S512x256 .f32 := iblk1 V c 9 t
abbrev b4Blk (c : Dev nD) (t : Fin cfg1.N) : Vec Ideal S1x256 .f32 := iblk1 V c 10 t
abbrev w5Blk (c : Dev nD) (t : Fin cfg1.N) : Vec Ideal S256x1 .f32 := iblk1 V c 11 t
abbrev b5Blk (c : Dev nD) (t : Fin cfg1.N) : Vec Ideal S1x1 .f32 := iblk1 V c 12 t

theorem row_lt (t : Fin cfg1.N) (p : Fin 512) : 512 * t.val + p.val < 4096 := by
  have h1 := t.isLt
  have hN : cfg1.N = 8 := N_1
  have h2 := p.isLt
  omega

/-- Row `p` of a point's block of a 4096-row input is row `512 t + p` of the input. -/
theorem hoBlk_apply (c : Dev nD) (t : Fin cfg1.N) (p : Fin 512) (k : Fin 128) :
    hoBlk V c t (ix2 p k) = hoArr V c (ix2 ⟨512 * t.val + p.val, row_lt t p⟩ k) := by
  have hi : win1_0.index t 0 = t.val ∧ win1_0.index t 1 = 0 :=
    (by decide +kernel : ∀ t : Fin grid1.N, win1_0.index t 0 = t.val ∧ win1_0.index t 1 = 0) t
  show ((cfg1.win 0).blk t).view.read (Elt Ideal) (V c (Pipeline.arrRef spec1 0)) (ix2 p k) = _
  rw [View.read_apply]
  show V c main_v3_0 _ = V c main_v3_0 _
  congr 1
  funext a
  apply Fin.ext
  match a with
  | ⟨0, _⟩ => show win1_0.index t 0 * 512 + 1 * p.val = 512 * t.val + p.val; rw [hi.1]; omega
  | ⟨1, _⟩ => show win1_0.index t 1 * 128 + 1 * k.val = k.val; rw [hi.2]; omega

theorem hBlk_apply (c : Dev nD) (t : Fin cfg1.N) (p : Fin 512) (k : Fin 128) :
    hBlk V c t (ix2 p k) = hArr V c (ix2 ⟨512 * t.val + p.val, row_lt t p⟩ k) := by
  have hi : win1_1.index t 0 = t.val ∧ win1_1.index t 1 = 0 :=
    (by decide +kernel : ∀ t : Fin grid1.N, win1_1.index t 0 = t.val ∧ win1_1.index t 1 = 0) t
  show ((cfg1.win 1).blk t).view.read (Elt Ideal) (V c (Pipeline.arrRef spec1 1)) (ix2 p k) = _
  rw [View.read_apply]
  show V c main_arg0 _ = V c main_arg0 _
  congr 1
  funext a
  apply Fin.ext
  match a with
  | ⟨0, _⟩ => show win1_1.index t 0 * 512 + 1 * p.val = 512 * t.val + p.val; rw [hi.1]; omega
  | ⟨1, _⟩ => show win1_1.index t 1 * 128 + 1 * k.val = k.val; rw [hi.2]; omega

theorem hiBlk_apply (c : Dev nD) (t : Fin cfg1.N) (p : Fin 512) (k : Fin 128) :
    hiBlk V c t (ix2 p k) = hiArr V c (ix2 ⟨512 * t.val + p.val, row_lt t p⟩ k) := by
  have hi : win1_2.index t 0 = t.val ∧ win1_2.index t 1 = 0 :=
    (by decide +kernel : ∀ t : Fin grid1.N, win1_2.index t 0 = t.val ∧ win1_2.index t 1 = 0) t
  show ((cfg1.win 2).blk t).view.read (Elt Ideal) (V c (Pipeline.arrRef spec1 2)) (ix2 p k) = _
  rw [View.read_apply]
  show V c main_v3_1 _ = V c main_v3_1 _
  congr 1
  funext a
  apply Fin.ext
  match a with
  | ⟨0, _⟩ => show win1_2.index t 0 * 512 + 1 * p.val = 512 * t.val + p.val; rw [hi.1]; omega
  | ⟨1, _⟩ => show win1_2.index t 1 * 128 + 1 * k.val = k.val; rw [hi.2]; omega

/-- A weight matrix or a bias row is staged whole at every point. -/
theorem w1Blk_eq (c : Dev nD) (t : Fin cfg1.N) : w1Blk V c t = w1Arr V c := by
  have hi : win1_3.index t 0 = 0 ∧ win1_3.index t 1 = 0 :=
    (by decide +kernel : ∀ t : Fin grid1.N, win1_3.index t 0 = 0 ∧ win1_3.index t 1 = 0) t
  funext y
  show ((cfg1.win 3).blk t).view.read (Elt Ideal) (V c (Pipeline.arrRef spec1 3)) y = _
  rw [View.read_apply]
  show V c main_arg4 _ = V c main_arg4 y
  congr 1
  funext a
  apply Fin.ext
  match a with
  | ⟨0, _⟩ => show win1_3.index t 0 * 384 + 1 * (y 0).val = (y 0).val; rw [hi.1]; omega
  | ⟨1, _⟩ => show win1_3.index t 1 * 1024 + 1 * (y 1).val = (y 1).val; rw [hi.2]; omega

theorem b1Blk_eq (c : Dev nD) (t : Fin cfg1.N) : b1Blk V c t = b1Arr V c := by
  have hi : win1_4.index t 0 = 0 ∧ win1_4.index t 1 = 0 :=
    (by decide +kernel : ∀ t : Fin grid1.N, win1_4.index t 0 = 0 ∧ win1_4.index t 1 = 0) t
  funext y
  show ((cfg1.win 4).blk t).view.read (Elt Ideal) (V c (Pipeline.arrRef spec1 4)) y = _
  rw [View.read_apply]
  show V c main_v4 _ = V c main_v4 y
  congr 1
  funext a
  apply Fin.ext
  match a with
  | ⟨0, _⟩ => show win1_4.index t 0 * 1 + 1 * (y 0).val = (y 0).val; rw [hi.1]; omega
  | ⟨1, _⟩ => show win1_4.index t 1 * 1024 + 1 * (y 1).val = (y 1).val; rw [hi.2]; omega

theorem w2Blk_eq (c : Dev nD) (t : Fin cfg1.N) : w2Blk V c t = w2Arr V c := by
  have hi : win1_5.index t 0 = 0 ∧ win1_5.index t 1 = 0 :=
    (by decide +kernel : ∀ t : Fin grid1.N, win1_5.index t 0 = 0 ∧ win1_5.index t 1 = 0) t
  funext y
  show ((cfg1.win 5).blk t).view.read (Elt Ideal) (V c (Pipeline.arrRef spec1 5)) y = _
  rw [View.read_apply]
  show V c main_arg6 _ = V c main_arg6 y
  congr 1
  funext a
  apply Fin.ext
  match a with
  | ⟨0, _⟩ => show win1_5.index t 0 * 1024 + 1 * (y 0).val = (y 0).val; rw [hi.1]; omega
  | ⟨1, _⟩ => show win1_5.index t 1 * 1024 + 1 * (y 1).val = (y 1).val; rw [hi.2]; omega

theorem b2Blk_eq (c : Dev nD) (t : Fin cfg1.N) : b2Blk V c t = b2Arr V c := by
  have hi : win1_6.index t 0 = 0 ∧ win1_6.index t 1 = 0 :=
    (by decide +kernel : ∀ t : Fin grid1.N, win1_6.index t 0 = 0 ∧ win1_6.index t 1 = 0) t
  funext y
  show ((cfg1.win 6).blk t).view.read (Elt Ideal) (V c (Pipeline.arrRef spec1 6)) y = _
  rw [View.read_apply]
  show V c main_v5 _ = V c main_v5 y
  congr 1
  funext a
  apply Fin.ext
  match a with
  | ⟨0, _⟩ => show win1_6.index t 0 * 1 + 1 * (y 0).val = (y 0).val; rw [hi.1]; omega
  | ⟨1, _⟩ => show win1_6.index t 1 * 1024 + 1 * (y 1).val = (y 1).val; rw [hi.2]; omega

theorem w3Blk_eq (c : Dev nD) (t : Fin cfg1.N) : w3Blk V c t = w3Arr V c := by
  have hi : win1_7.index t 0 = 0 ∧ win1_7.index t 1 = 0 :=
    (by decide +kernel : ∀ t : Fin grid1.N, win1_7.index t 0 = 0 ∧ win1_7.index t 1 = 0) t
  funext y
  show ((cfg1.win 7).blk t).view.read (Elt Ideal) (V c (Pipeline.arrRef spec1 7)) y = _
  rw [View.read_apply]
  show V c main_arg8 _ = V c main_arg8 y
  congr 1
  funext a
  apply Fin.ext
  match a with
  | ⟨0, _⟩ => show win1_7.index t 0 * 1024 + 1 * (y 0).val = (y 0).val; rw [hi.1]; omega
  | ⟨1, _⟩ => show win1_7.index t 1 * 512 + 1 * (y 1).val = (y 1).val; rw [hi.2]; omega

theorem b3Blk_eq (c : Dev nD) (t : Fin cfg1.N) : b3Blk V c t = b3Arr V c := by
  have hi : win1_8.index t 0 = 0 ∧ win1_8.index t 1 = 0 :=
    (by decide +kernel : ∀ t : Fin grid1.N, win1_8.index t 0 = 0 ∧ win1_8.index t 1 = 0) t
  funext y
  show ((cfg1.win 8).blk t).view.read (Elt Ideal) (V c (Pipeline.arrRef spec1 8)) y = _
  rw [View.read_apply]
  show V c main_v6 _ = V c main_v6 y
  congr 1
  funext a
  apply Fin.ext
  match a with
  | ⟨0, _⟩ => show win1_8.index t 0 * 1 + 1 * (y 0).val = (y 0).val; rw [hi.1]; omega
  | ⟨1, _⟩ => show win1_8.index t 1 * 512 + 1 * (y 1).val = (y 1).val; rw [hi.2]; omega

theorem w4Blk_eq (c : Dev nD) (t : Fin cfg1.N) : w4Blk V c t = w4Arr V c := by
  have hi : win1_9.index t 0 = 0 ∧ win1_9.index t 1 = 0 :=
    (by decide +kernel : ∀ t : Fin grid1.N, win1_9.index t 0 = 0 ∧ win1_9.index t 1 = 0) t
  funext y
  show ((cfg1.win 9).blk t).view.read (Elt Ideal) (V c (Pipeline.arrRef spec1 9)) y = _
  rw [View.read_apply]
  show V c main_arg10 _ = V c main_arg10 y
  congr 1
  funext a
  apply Fin.ext
  match a with
  | ⟨0, _⟩ => show win1_9.index t 0 * 512 + 1 * (y 0).val = (y 0).val; rw [hi.1]; omega
  | ⟨1, _⟩ => show win1_9.index t 1 * 256 + 1 * (y 1).val = (y 1).val; rw [hi.2]; omega

theorem b4Blk_eq (c : Dev nD) (t : Fin cfg1.N) : b4Blk V c t = b4Arr V c := by
  have hi : win1_10.index t 0 = 0 ∧ win1_10.index t 1 = 0 :=
    (by decide +kernel : ∀ t : Fin grid1.N, win1_10.index t 0 = 0 ∧ win1_10.index t 1 = 0) t
  funext y
  show ((cfg1.win 10).blk t).view.read (Elt Ideal) (V c (Pipeline.arrRef spec1 10)) y = _
  rw [View.read_apply]
  show V c main_v7 _ = V c main_v7 y
  congr 1
  funext a
  apply Fin.ext
  match a with
  | ⟨0, _⟩ => show win1_10.index t 0 * 1 + 1 * (y 0).val = (y 0).val; rw [hi.1]; omega
  | ⟨1, _⟩ => show win1_10.index t 1 * 256 + 1 * (y 1).val = (y 1).val; rw [hi.2]; omega

theorem w5Blk_eq (c : Dev nD) (t : Fin cfg1.N) : w5Blk V c t = w5Arr V c := by
  have hi : win1_11.index t 0 = 0 ∧ win1_11.index t 1 = 0 :=
    (by decide +kernel : ∀ t : Fin grid1.N, win1_11.index t 0 = 0 ∧ win1_11.index t 1 = 0) t
  funext y
  show ((cfg1.win 11).blk t).view.read (Elt Ideal) (V c (Pipeline.arrRef spec1 11)) y = _
  rw [View.read_apply]
  show V c main_arg12 _ = V c main_arg12 y
  congr 1
  funext a
  apply Fin.ext
  match a with
  | ⟨0, _⟩ => show win1_11.index t 0 * 256 + 1 * (y 0).val = (y 0).val; rw [hi.1]; omega
  | ⟨1, _⟩ => show win1_11.index t 1 * 1 + 1 * (y 1).val = (y 1).val; rw [hi.2]; omega

theorem b5Blk_eq (c : Dev nD) (t : Fin cfg1.N) : b5Blk V c t = b5Arr V c := by
  have hi : win1_12.index t 0 = 0 ∧ win1_12.index t 1 = 0 :=
    (by decide +kernel : ∀ t : Fin grid1.N, win1_12.index t 0 = 0 ∧ win1_12.index t 1 = 0) t
  funext y
  show ((cfg1.win 12).blk t).view.read (Elt Ideal) (V c (Pipeline.arrRef spec1 12)) y = _
  rw [View.read_apply]
  show V c main_v8 _ = V c main_v8 y
  congr 1
  funext a
  apply Fin.ext
  match a with
  | ⟨0, _⟩ => show win1_12.index t 0 * 1 + 1 * (y 0).val = (y 0).val; rw [hi.1]; omega
  | ⟨1, _⟩ => show win1_12.index t 1 * 1 + 1 * (y 1).val = (y 1).val; rw [hi.2]; omega

end Cert.KernelIdeal.Named

end
-- ==== Proof.Region1Out.lean ====
import proofs.«143709_j72344429134238_1_alg».proof.Proof.Region1

set_option maxRecDepth 16384

/-! # The second region: the result array as one function of the region's arrays -/

noncomputable section

namespace Cert.KernelIdeal.Named

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

open Idealize.ShloMosaic.ValueIdx
open scoped BigOperators

variable (V : (c : Dev nD) → (b : Ref sig .tc) → Buf (Elt Ideal) ((c : Thread nD τ).loc b))

/-- Node `n`'s result: the perceptron of row `n` of the two aggregates and of the features. -/
def rowRes (c : Dev nD) (n : Fin 4096) : EReal :=
  Cert.Spec.rowSplit (fun k => hoArr V c (ix2 n k)) (fun k => hArr V c (ix2 n k)) (fun k => hiArr V c (ix2 n k))
    (Cert.Spec.rows0 (Cert.Spec.m2 (w1Arr V c))) (Cert.Spec.rows1 (Cert.Spec.m2 (w1Arr V c))) (Cert.Spec.rows2 (Cert.Spec.m2 (w1Arr V c)))
    (fun j => b1Arr V c (ix2 0 j)) (Cert.Spec.m2 (w2Arr V c)) (fun j => b2Arr V c (ix2 0 j))
    (Cert.Spec.m2 (w3Arr V c)) (fun j => b3Arr V c (ix2 0 j)) (Cert.Spec.m2 (w4Arr V c)) (fun j => b4Arr V c (ix2 0 j))
    (Cert.Spec.m2 (w5Arr V c)) (fun j => b5Arr V c (ix2 0 j))

/-- The 4096 by 1 result: entry `(n, 0)` is node `n`'s. -/
def res1 (c : Dev nD) : Buf (Elt Ideal) ((c : Thread nD τ).loc main_v9) :=
  fun i => rowRes V c ⟨(i 0).val, (i 0).isLt⟩

/-! ## The first layer's weights, loaded as three pieces of 128 rows -/

theorem ld_rows0 (x : Vec Ideal S384x1024 .f32) : Cert.Spec.m2 (View.ld x r1_1) = Cert.Spec.rows0 (Cert.Spec.m2 x) := by
  funext k j
  show x (r1_1.idx (ix2 k j)) = x (ix2 ⟨k.val, _⟩ j)
  congr 1
  funext a
  apply Fin.ext
  match a with
  | ⟨0, _⟩ => show 0 + 1 * k.val = k.val; omega
  | ⟨1, _⟩ => show 0 + 1 * j.val = j.val; omega

theorem ld_rows1 (x : Vec Ideal S384x1024 .f32) : Cert.Spec.m2 (View.ld x r1_2) = Cert.Spec.rows1 (Cert.Spec.m2 x) := by
  funext k j
  show x (r1_2.idx (ix2 k j)) = x (ix2 ⟨128 + k.val, _⟩ j)
  congr 1
  funext a
  apply Fin.ext
  match a with
  | ⟨0, _⟩ => show 128 + 1 * k.val = 128 + k.val; omega
  | ⟨1, _⟩ => show 0 + 1 * j.val = j.val; omega

theorem ld_rows2 (x : Vec Ideal S384x1024 .f32) : Cert.Spec.m2 (View.ld x r1_3) = Cert.Spec.rows2 (Cert.Spec.m2 x) := by
  funext k j
  show x (r1_3.idx (ix2 k j)) = x (ix2 ⟨256 + k.val, _⟩ j)
  congr 1
  funext a
  apply Fin.ext
  match a with
  | ⟨0, _⟩ => show 256 + 1 * k.val = 256 + k.val; omega
  | ⟨1, _⟩ => show 0 + 1 * j.val = j.val; omega

/-! ## What a point writes back -/

theorem idx13 (t : Fin cfg1.N) : win1_13.index t 0 = t.val ∧ win1_13.index t 1 = 0 :=
  (by decide +kernel : ∀ t : Fin grid1.N, win1_13.index t 0 = t.val ∧ win1_13.index t 1 = 0) t

/-- Point `t` writes back rows `512 t … 512 t + 511` of the result. -/
theorem flushed13 (c : Dev nD) (t : Fin cfg1.N) :
    (dat1 V c).flushed 13 t = ((cfg1.win 13).blk t).view.read (Elt Ideal) (res1 V c) := by
  show (cfg1.win 13).cut (grid1.coords t) ((dat1 V c).after 13 t) = _
  rw [after1_13]
  unfold out1_13
  rw [View.canon_unit_zero hz1]
  simp only [View.ld_unit_zero (S := S512x128) hz1, View.ld_unit_zero (S := S1x1024) hz1, View.ld_unit_zero (S := S1024x1024) hz1,
    View.ld_unit_zero (S := S1024x512) hz1, View.ld_unit_zero (S := S1x512) hz1, View.ld_unit_zero (S := S512x256) hz1,
    View.ld_unit_zero (S := S1x256) hz1, View.ld_unit_zero (S := S256x1) hz1, View.ld_unit_zero (S := S1x1) hz1]
  funext y
  obtain ⟨p, q, rfl⟩ : ∃ (p : Fin 512) (q : Fin 1), y = ix2 p q := ⟨y 0, y 1, eq_ix2 y⟩
  refine (MlpPay.row_eq (hoBlk V c t) (hBlk V c t) (hiBlk V c t) (View.ld (w1Blk V c t) r1_1) (View.ld (w1Blk V c t) r1_2)
    (View.ld (w1Blk V c t) r1_3) (b1Blk V c t) (w2Blk V c t) (b2Blk V c t) (w3Blk V c t) (b3Blk V c t) (w4Blk V c t) (b4Blk V c t)
    (w5Blk V c t) (b5Blk V c t) p q).trans ?_
  show _ = rowRes V c ⟨(((cfg1.win 13).blk t).view.emb (ix2 p q) 0).val, (((cfg1.win 13).blk t).view.emb (ix2 p q) 0).isLt⟩
  have e : (⟨(((cfg1.win 13).blk t).view.emb (ix2 p q) 0).val, (((cfg1.win 13).blk t).view.emb (ix2 p q) 0).isLt⟩ : Fin 4096)
      = ⟨512 * t.val + p.val, row_lt t p⟩ :=
    Fin.ext (by show win1_13.index t 0 * 512 + 1 * p.val = 512 * t.val + p.val; rw [(idx13 t).1]; omega)
  rw [e]
  unfold rowRes
  simp only [hoBlk_apply, hBlk_apply, hiBlk_apply, w1Blk_eq, b1Blk_eq, w2Blk_eq, b2Blk_eq, w3Blk_eq, b3Blk_eq, w4Blk_eq, b4Blk_eq,
    w5Blk_eq, b5Blk_eq, ld_rows0, ld_rows1, ld_rows2]

/-! ## The eight blocks cover the result -/

theorem mem_blk13 (t : Fin cfg1.N) (i : S4096x1.Idx) :
    i ∈ ((cfg1.win 13).blk t).view.set
      ↔ ∀ a : Fin 2, win1_13.index t a * S512x1.size a ≤ (i a).val ∧ (i a).val < win1_13.index t a * S512x1.size a + S512x1.size a := by
  show i ∈ ((View.whole main_v9).slice (win1_13.rect t)).set ↔ _
  rw [View.set_slice_whole, Rect.mem_set_unit]
  exact Iff.rfl

/-- So the result array ends at the perceptron of every node's row. -/
theorem arr13 (c : Dev nD) : (dat1 V c).arrAt 13 cfg1.N = res1 V c :=
  (dat1 V c).arrAt_eq_of_cover 13 (res1 V c) (fun t _ => flushed13 V c t) fun i => by
    have hN : cfg1.N = 8 := N_1
    have h0 : (i 0).val < 4096 := (i 0).isLt
    have h1 : (i 1).val < 1 := (i 1).isLt
    have ht : (i 0).val / 512 < cfg1.N := by rw [hN]; omega
    refine ⟨⟨(i 0).val / 512, ht⟩, flush1_13 _, ?_⟩
    rw [mem_blk13]
    intro a
    match a with
    | ⟨0, _⟩ =>
      show win1_13.index ⟨(i 0).val / 512, ht⟩ 0 * 512 ≤ (i 0).val ∧ (i 0).val < win1_13.index ⟨(i 0).val / 512, ht⟩ 0 * 512 + 512
      rw [(idx13 ⟨(i 0).val / 512, ht⟩).1]
      show (i 0).val / 512 * 512 ≤ (i 0).val ∧ (i 0).val < (i 0).val / 512 * 512 + 512
      omega
    | ⟨1, _⟩ =>
      show win1_13.index ⟨(i 0).val / 512, ht⟩ 1 * 1 ≤ (i 1).val ∧ (i 1).val < win1_13.index ⟨(i 0).val / 512, ht⟩ 1 * 1 + 1
      rw [(idx13 ⟨(i 0).val / 512, ht⟩).2]
      omega

end Cert.KernelIdeal.Named

end
-- ==== Proof.KernelValue.lean ====
import proofs.«143709_j72344429134238_1_alg».proof.Proof.RunNamed
import proofs.«143709_j72344429134238_1_alg».proof.Proof.HostArrays
import proofs.«143709_j72344429134238_1_alg».proof.Proof.Region0Arr
import proofs.«143709_j72344429134238_1_alg».proof.Proof.Region1Out
import Idealize.ShloMosaic.Lib.ValueLayout

set_option maxRecDepth 16384

/-! # The kernel's result array is the specification's function of the fourteen arguments

The second region's arrays are the arguments as launched, the biases laid out as rows, and the two aggregates the first
region left; the first region's arrays are the two incidence matrices as launched and the features scaled on the host. -/

noncomputable section

namespace Cert.KernelIdeal.Named

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

open Idealize.ShloMosaic.ValueIdx
open scoped BigOperators

variable (m : (ℓ : Loc nD τ sig) → Buf (Elt Ideal) ℓ) (ρ : Dev nD → PrngReg)

/-- The fourteen arguments as launched, at their literal shapes. -/
abbrev a0 (c : Dev nD) : Vec Ideal S4096x128 .f32 := m ((c : Thread nD τ).loc main_arg0)
abbrev a1 (c : Dev nD) : Vec Ideal S16384x4096 .f32 := m ((c : Thread nD τ).loc main_arg1)
abbrev a2 (c : Dev nD) : Vec Ideal S16384x4096 .f32 := m ((c : Thread nD τ).loc main_arg2)
abbrev a3 (c : Dev nD) : Vec Ideal S4096 .f32 := m ((c : Thread nD τ).loc main_arg3)
abbrev a4 (c : Dev nD) : Vec Ideal S384x1024 .f32 := m ((c : Thread nD τ).loc main_arg4)
abbrev a5 (c : Dev nD) : Vec Ideal S1024 .f32 := m ((c : Thread nD τ).loc main_arg5)
abbrev a6 (c : Dev nD) : Vec Ideal S1024x1024 .f32 := m ((c : Thread nD τ).loc main_arg6)
abbrev a7 (c : Dev nD) : Vec Ideal S1024 .f32 := m ((c : Thread nD τ).loc main_arg7)
abbrev a8 (c : Dev nD) : Vec Ideal S1024x512 .f32 := m ((c : Thread nD τ).loc main_arg8)
abbrev a9 (c : Dev nD) : Vec Ideal S512 .f32 := m ((c : Thread nD τ).loc main_arg9)
abbrev a10 (c : Dev nD) : Vec Ideal S512x256 .f32 := m ((c : Thread nD τ).loc main_arg10)
abbrev a11 (c : Dev nD) : Vec Ideal S256 .f32 := m ((c : Thread nD τ).loc main_arg11)
abbrev a12 (c : Dev nD) : Vec Ideal S256x1 .f32 := m ((c : Thread nD τ).loc main_arg12)
abbrev a13 (c : Dev nD) : Vec Ideal S1 .f32 := m ((c : Thread nD τ).loc main_arg13)

/-- The host's scaling, entry by entry: the weight of node `k` times the feature. -/
theorem scaled_eq (c : Dev nD) :
    Cert.Spec.m2 (ehArr (V1 m ρ) c) = Cert.Spec.scaled (Cert.Spec.m1 (a3 m c)) (Cert.Spec.m2 (a0 m c)) := by
  funext k d
  show (V1 m ρ c main_v2 : Vec Ideal S4096x128 .f32) (ix2 k d) = a3 m c (ix1 k) * a0 m c (ix2 k d)
  have e : (V1 m ρ c main_v2 : Vec Ideal S4096x128 .f32) = _ := W1_main_v2 m ρ c
  rw [e]
  show (broadcastInDim S4096x128 ![0, 1] bcast_S4096x1_S4096x128_0_1 (broadcastInDim S4096x1 ![0] bcast_S4096_S4096x1_0 (a3 m c))) (ix2 k d)
      * a0 m c (ix2 k d) = _
  refine congrArg (· * a0 m c (ix2 k d)) ?_
  rw [broadcastInDim_apply _ bcast_S4096x1_S4096x128_0_1 _ (ix2 k d) (ix2 k (0 : Fin 1)) (fun a => match a with
      | ⟨0, _⟩ => by show k.val = if (4096 : Nat) = 1 then 0 else k.val; rw [if_neg (by decide)]
      | ⟨1, _⟩ => by show 0 = if (1 : Nat) = 1 then 0 else d.val; rw [if_pos rfl]),
    broadcastInDim_apply _ bcast_S4096_S4096x1_0 _ (ix2 k (0 : Fin 1)) (ix1 k) (fun a => match a with
      | ⟨0, _⟩ => by show k.val = if (4096 : Nat) = 1 then 0 else k.val; rw [if_neg (by decide)])]

/-- Row `n` of the first aggregate, as the second region finds it. -/
theorem ho_row (c : Dev nD) (n : Fin 4096) :
    (fun k => hoArr (V3 m ρ) c (ix2 n k))
      = Cert.Spec.agg (Cert.Spec.m2 (a2 m c)) (Cert.Spec.m2 (a1 m c)) (Cert.Spec.scaled (Cert.Spec.m1 (a3 m c)) (Cert.Spec.m2 (a0 m c))) n := by
  funext k
  show (V3 m ρ c main_v3_0 : Vec Ideal S4096x128 .f32) (ix2 n k) = _
  have e : (V3 m ρ c main_v3_0 : Vec Ideal S4096x128 .f32) = (dat0 (V1 m ρ) c).arrAt 3 cfg0.N := W3_main_v3_0 m ρ c
  rw [e, agg3 (V1 m ρ) c n k, scaled_eq m ρ c]
  have e1 : riArr (V1 m ρ) c = a2 m c := W1_main_arg2 m ρ c
  have e2 : roArr (V1 m ρ) c = a1 m c := W1_main_arg1 m ρ c
  rw [e1, e2]

/-- Row `n` of the second aggregate. -/
theorem hi_row (c : Dev nD) (n : Fin 4096) :
    (fun k => hiArr (V3 m ρ) c (ix2 n k))
      = Cert.Spec.agg (Cert.Spec.m2 (a1 m c)) (Cert.Spec.m2 (a2 m c)) (Cert.Spec.scaled (Cert.Spec.m1 (a3 m c)) (Cert.Spec.m2 (a0 m c))) n := by
  funext k
  show (V3 m ρ c main_v3_1 : Vec Ideal S4096x128 .f32) (ix2 n k) = _
  have e : (V3 m ρ c main_v3_1 : Vec Ideal S4096x128 .f32) = (dat0 (V1 m ρ) c).arrAt 4 cfg0.N := W3_main_v3_1 m ρ c
  rw [e, agg4 (V1 m ρ) c n k, scaled_eq m ρ c]
  have e1 : riArr (V1 m ρ) c = a2 m c := W1_main_arg2 m ρ c
  have e2 : roArr (V1 m ρ) c = a1 m c := W1_main_arg1 m ρ c
  rw [e1, e2]

/-- A bias laid out as a one-row matrix reads, in its row, the vector. -/
theorem bias_row {a : ℕ} (x : (⟨1, ![a]⟩ : Shape).Idx → EReal) (h : (⟨1, ![a]⟩ : Shape).ShapeCasts ⟨2, ![1, a]⟩) :
    (fun j : Fin a => shapeCast ⟨2, ![1, a]⟩ x h (ix2 (0 : Fin 1) j)) = Cert.Spec.m1 x :=
  funext fun j => shapeCast_a_1a_apply x h 0 j

/-- THE KERNEL'S VALUE: the second region's result, over the arrays it finds, is the specification's function of the
    arguments as launched. -/
theorem res_eq (c : Dev nD) :
    res1 (V3 m ρ) c = Cert.Spec.out (a0 m c) (a1 m c) (a2 m c) (a3 m c) (a4 m c) (a5 m c) (a6 m c) (a7 m c) (a8 m c) (a9 m c)
      (a10 m c) (a11 m c) (a12 m c) (a13 m c) := by
  funext i
  unfold res1 rowRes Cert.Spec.out
  rw [ho_row m ρ c, hi_row m ρ c]
  have eH : hArr (V3 m ρ) c = a0 m c := W3_main_arg0 m ρ c
  have eW1 : w1Arr (V3 m ρ) c = a4 m c := W3_main_arg4 m ρ c
  have eW2 : w2Arr (V3 m ρ) c = a6 m c := W3_main_arg6 m ρ c
  have eW3 : w3Arr (V3 m ρ) c = a8 m c := W3_main_arg8 m ρ c
  have eW4 : w4Arr (V3 m ρ) c = a10 m c := W3_main_arg10 m ρ c
  have eW5 : w5Arr (V3 m ρ) c = a12 m c := W3_main_arg12 m ρ c
  have eB1 : b1Arr (V3 m ρ) c = shapeCast S1x1024 (a5 m c) shapeCasts_S1024_S1x1024 := W3_main_v4 m ρ c
  have eB2 : b2Arr (V3 m ρ) c = shapeCast S1x1024 (a7 m c) shapeCasts_S1024_S1x1024 := W3_main_v5 m ρ c
  have eB3 : b3Arr (V3 m ρ) c = shapeCast S1x512 (a9 m c) shapeCasts_S512_S1x512 := W3_main_v6 m ρ c
  have eB4 : b4Arr (V3 m ρ) c = shapeCast S1x256 (a11 m c) shapeCasts_S256_S1x256 := W3_main_v7 m ρ c
  have eB5 : b5Arr (V3 m ρ) c = shapeCast S1x1 (a13 m c) shapeCasts_S1_S1x1 := W3_main_v8 m ρ c
  rw [eH, eW1, eW2, eW3, eW4, eW5, eB1, eB2, eB3, eB4, eB5,
    bias_row (a5 m c) shapeCasts_S1024_S1x1024, bias_row (a7 m c) shapeCasts_S1024_S1x1024,
    bias_row (a9 m c) shapeCasts_S512_S1x512, bias_row (a11 m c) shapeCasts_S256_S1x256, bias_row (a13 m c) shapeCasts_S1_S1x1]

/-- THE RUN, read: every weakly fair execution terminates without a fault with the result array at the specification's
    function of the arguments, the arguments unchanged. -/
theorem run : θ_run defs (onTc (τ := τ) (main (F := Ideal))) ⟨m, fun _ => 0, ρ⟩ (fun r => ∀ c : Dev nD,
      r.2.mem ((c.tc : Thread nD τ).loc main_v9) = Cert.Spec.out (a0 m c) (a1 m c) (a2 m c) (a3 m c) (a4 m c) (a5 m c) (a6 m c)
        (a7 m c) (a8 m c) (a9 m c) (a10 m c) (a11 m c) (a12 m c) (a13 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
      ⟨((h c).1.trans (W4_arr m ρ c 13)).trans ((arr13 (V3 m ρ) c).trans (res_eq m ρ c)), (h c).2⟩)
    (run_named (F := Ideal) m ρ)

end Cert.KernelIdeal.Named

end
-- ==== Proof.RefValue.lean ====
import proofs.«143709_j72344429134238_1_alg».proof.Proof.Gen.ReferenceIdeal.Read
import proofs.«143709_j72344429134238_1_alg».proof.Proof.Spec
import proofs.«143709_j72344429134238_1_alg».proof.Proof.LibSumBlocks
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open scoped BigOperators

section Stages

variable (x0 : (⟨S4096x128, .f32⟩ : BufTy).Contents (Elt Ideal)) (x1 x2 : (⟨S16384x4096, .f32⟩ : BufTy).Contents (Elt Ideal))
    (x3 : (⟨S4096, .f32⟩ : BufTy).Contents (Elt Ideal))

/-- Columns 0 to 127 of the joined array are the first piece. -/
theorem cat0 (n : Fin 4096) (c : Fin 128) :
    val_main_v9 (F := Ideal) x0 x1 x2 x3 (ix2 n ⟨c.val, by have := c.isLt; omega⟩)
      = val_main_v5 (F := Ideal) x0 x1 x2 x3 (ix2 n c) := by
  unfold val_main_v9
  refine concatenate_apply_piece (1 : Fin S4096x384.rank) _ _ _ 0 ?hk S4096x128 _ rfl rfl 0 rfl (ix2 n c) ?hi ?ha
  case hk => show 0 < 3; decide
  case hi =>
    intro b hb
    match b with
    | ⟨0, _⟩ => rfl
    | ⟨1, _⟩ => exact absurd rfl hb
  case ha =>
    show 0 + c.val = c.val
    omega

/-- Columns 128 to 255 of the joined array are the second piece, the node features themselves. -/
theorem cat1 (n : Fin 4096) (c : Fin 128) :
    val_main_v9 (F := Ideal) x0 x1 x2 x3 (ix2 n ⟨128 + c.val, by have := c.isLt; omega⟩)
      = x0 (ix2 n c) := by
  unfold val_main_v9
  refine concatenate_apply_piece (1 : Fin S4096x384.rank) _ _ _ 1 ?hk S4096x128 _ rfl rfl 128 rfl (ix2 n c) ?hi ?ha
  case hk => show 1 < 3; decide
  case hi =>
    intro b hb
    match b with
    | ⟨0, _⟩ => rfl
    | ⟨1, _⟩ => exact absurd rfl hb
  case ha => rfl

/-- Columns 256 to 383 of the joined array are the third piece. -/
theorem cat2 (n : Fin 4096) (c : Fin 128) :
    val_main_v9 (F := Ideal) x0 x1 x2 x3 (ix2 n ⟨256 + c.val, by have := c.isLt; omega⟩)
      = val_main_v8 (F := Ideal) x0 x1 x2 x3 (ix2 n c) := by
  unfold val_main_v9
  refine concatenate_apply_piece (1 : Fin S4096x384.rank) _ _ _ 2 ?hk S4096x128 _ rfl rfl 256 rfl (ix2 n c) ?hi ?ha
  case hk => show 2 < 3; decide
  case hi =>
    intro b hb
    match b with
    | ⟨0, _⟩ => rfl
    | ⟨1, _⟩ => exact absurd rfl hb
  case ha => rfl

/-- The scaled features: entry (k, d) is the node's weight times the node's feature. -/
theorem scaled_eq (k : Fin 4096) (d : Fin 128) :
    val_main_v2 (F := Ideal) x0 x3 (ix2 k d) = Cert.Spec.scaled (Cert.Spec.m1 x3) (Cert.Spec.m2 x0) k d := by
  rw [val_main_v2_apply, val_main_v1_apply, val_main_v0_apply]
  have e : idx_main_v0 (idx_main_v1 (ix2 k d)) = ix1 k := by
    funext a; match a with | ⟨0, _⟩ => rfl
  rw [e]
  rfl

/-- The first aggregation, entry (n, d): the sum over the edges r of Ri r n times row r of Ro (e·H). -/
theorem ho_eq (n : Fin 4096) (d : Fin 128) :
    val_main_v5 (F := Ideal) x0 x1 x2 x3 (ix2 n d)
      = Cert.Spec.agg (Cert.Spec.m2 x2) (Cert.Spec.m2 x1) (Cert.Spec.scaled (Cert.Spec.m1 x3) (Cert.Spec.m2 x0)) n d := by
  rw [val_main_v5_apply]
  unfold Cert.Spec.agg
  refine Finset.sum_congr rfl fun r _ => ?_
  have el : lidx_main_v5 (ix2 n d) r = ix2 n r := by
    funext a; match a with | ⟨0, _⟩ => rfl | ⟨1, _⟩ => rfl
  have er : ridx_main_v5 (ix2 n d) r = ix2 r d := by
    funext a; match a with | ⟨0, _⟩ => rfl | ⟨1, _⟩ => rfl
  have et : idx_main_v3 (ix2 n r) = ix2 r n := by
    funext a; match a with | ⟨0, _⟩ => rfl | ⟨1, _⟩ => rfl
  rw [el, er, val_main_v3_apply, et, val_main_v4_apply]
  refine congrArg (fun s => x2 (ix2 r n) * s) ?_
  refine Finset.sum_congr rfl fun k _ => ?_
  have el4 : lidx_main_v4 (ix2 r d) k = ix2 r k := by
    funext a; match a with | ⟨0, _⟩ => rfl | ⟨1, _⟩ => rfl
  have er4 : ridx_main_v4 (ix2 r d) k = ix2 k d := by
    funext a; match a with | ⟨0, _⟩ => rfl | ⟨1, _⟩ => rfl
  rw [el4, er4, scaled_eq]

/-- The second aggregation, entry (n, d): the same with the two incidence matrices exchanged. -/
theorem hi_eq (n : Fin 4096) (d : Fin 128) :
    val_main_v8 (F := Ideal) x0 x1 x2 x3 (ix2 n d)
      = Cert.Spec.agg (Cert.Spec.m2 x1) (Cert.Spec.m2 x2) (Cert.Spec.scaled (Cert.Spec.m1 x3) (Cert.Spec.m2 x0)) n d := by
  rw [val_main_v8_apply]
  unfold Cert.Spec.agg
  refine Finset.sum_congr rfl fun r _ => ?_
  have el : lidx_main_v8 (ix2 n d) r = ix2 n r := by
    funext a; match a with | ⟨0, _⟩ => rfl | ⟨1, _⟩ => rfl
  have er : ridx_main_v8 (ix2 n d) r = ix2 r d := by
    funext a; match a with | ⟨0, _⟩ => rfl | ⟨1, _⟩ => rfl
  have et : idx_main_v6 (ix2 n r) = ix2 r n := by
    funext a; match a with | ⟨0, _⟩ => rfl | ⟨1, _⟩ => rfl
  rw [el, er, val_main_v6_apply, et, val_main_v7_apply]
  refine congrArg (fun s => x1 (ix2 r n) * s) ?_
  refine Finset.sum_congr rfl fun k _ => ?_
  have el7 : lidx_main_v7 (ix2 r d) k = ix2 r k := by
    funext a; match a with | ⟨0, _⟩ => rfl | ⟨1, _⟩ => rfl
  have er7 : ridx_main_v7 (ix2 r d) k = ix2 k d := by
    funext a; match a with | ⟨0, _⟩ => rfl | ⟨1, _⟩ => rfl
  rw [el7, er7, scaled_eq]

/-- A sum over 384 consecutive indices is the sum over its three consecutive blocks of 128. -/
theorem sum_three_blocks (f : Fin 384 → EReal) :
    ∑ k : Fin 384, f k
      = ((∑ k : Fin 128, f ⟨k.val, by have := k.isLt; omega⟩) + ∑ k : Fin 128, f ⟨128 + k.val, by have := k.isLt; omega⟩)
          + ∑ k : Fin 128, f ⟨256 + k.val, by have := k.isLt; omega⟩ := by
  rw [← Cert.LibSumBlocks.sum_blocks (A := 3) (B := 128) (N := 384) rfl f, Fin.sum_univ_three]
  refine congrArg₂ (· + ·) (congrArg₂ (· + ·) ?_ ?_) ?_
  · exact Finset.sum_congr rfl fun r _ => congrArg f (Fin.ext (by show 128 * 0 + r.val = r.val; omega))
  · exact Finset.sum_congr rfl fun r _ => congrArg f (Fin.ext (by show 128 * 1 + r.val = 128 + r.val; omega))
  · exact Finset.sum_congr rfl fun r _ => congrArg f (Fin.ext (by show 128 * 2 + r.val = 256 + r.val; omega))

variable (x4 : (⟨S384x1024, .f32⟩ : BufTy).Contents (Elt Ideal)) (x5 : (⟨S1024, .f32⟩ : BufTy).Contents (Elt Ideal))

/-- The first layer, entry (n, j): the sum over the 384 joined columns, cut into its three blocks of 128, each block read
    through the piece it comes from, is the specification's first layer on the three pieces. -/
theorem layer1_eq (n : Fin 4096) (j : Fin 1024) :
    val_main_v14 (F := Ideal) x0 x1 x2 x3 x4 x5 (ix2 n j)
      = Cert.Spec.firstSplit
          (Cert.Spec.agg (Cert.Spec.m2 x2) (Cert.Spec.m2 x1) (Cert.Spec.scaled (Cert.Spec.m1 x3) (Cert.Spec.m2 x0)) n)
          (Cert.Spec.m2 x0 n)
          (Cert.Spec.agg (Cert.Spec.m2 x1) (Cert.Spec.m2 x2) (Cert.Spec.scaled (Cert.Spec.m1 x3) (Cert.Spec.m2 x0)) n)
          (Cert.Spec.rows0 (Cert.Spec.m2 x4)) (Cert.Spec.rows1 (Cert.Spec.m2 x4)) (Cert.Spec.rows2 (Cert.Spec.m2 x4))
          (Cert.Spec.m1 x5) j := by
  rw [val_main_v14_apply, val_main_v13_apply, val_main_v10_apply, val_main_v12_apply, val_main_v11_apply,
    Ideal.hostUnary_tanh_def, Ideal.addf_def]
  have eb : idx_main_v11 (idx_main_v12 (ix2 n j)) = ix1 j := by
    funext a; match a with | ⟨0, _⟩ => rfl
  have el : ∀ k : Fin 384, lidx_main_v10 (ix2 n j) k = ix2 n k := fun k => by
    funext a; match a with | ⟨0, _⟩ => rfl | ⟨1, _⟩ => rfl
  have er : ∀ k : Fin 384, ridx_main_v10 (ix2 n j) k = ix2 k j := fun k => by
    funext a; match a with | ⟨0, _⟩ => rfl | ⟨1, _⟩ => rfl
  rw [eb, sum_three_blocks]
  unfold Cert.Spec.firstSplit
  refine congrArg Ideal.tanh (congrArg₂ (· + ·) (congrArg₂ (· + ·) (congrArg₂ (· + ·) ?_ ?_) ?_) rfl)
  · refine Finset.sum_congr rfl fun k _ => ?_
    rw [el, er, cat0, ho_eq]
    rfl
  · refine Finset.sum_congr rfl fun k _ => ?_
    rw [el, er, cat1]
    rfl
  · refine Finset.sum_congr rfl fun k _ => ?_
    rw [el, er, cat2, hi_eq]
    rfl

variable (x6 : (⟨S1024x1024, .f32⟩ : BufTy).Contents (Elt Ideal)) (x7 : (⟨S1024, .f32⟩ : BufTy).Contents (Elt Ideal))
    (x8 : (⟨S1024x512, .f32⟩ : BufTy).Contents (Elt Ideal)) (x9 : (⟨S512, .f32⟩ : BufTy).Contents (Elt Ideal))
    (x10 : (⟨S512x256, .f32⟩ : BufTy).Contents (Elt Ideal)) (x11 : (⟨S256, .f32⟩ : BufTy).Contents (Elt Ideal))
    (x12 : (⟨S256x1, .f32⟩ : BufTy).Contents (Elt Ideal)) (x13 : (⟨S1, .f32⟩ : BufTy).Contents (Elt Ideal))

/-- The second layer, entry (n, j), from node n's row of the first: the same sum over the 1024 inputs, the same bias. -/
theorem layer2_eq (n : Fin 4096) (j : Fin 1024) (prev : Fin 1024 → EReal)
    (hprev : ∀ k : Fin 1024, val_main_v14 (F := Ideal) x0 x1 x2 x3 x4 x5 (ix2 n k) = prev k) :
    val_main_v19 (F := Ideal) x0 x1 x2 x3 x4 x5 x6 x7 (ix2 n j)
      = Cert.Spec.hidden prev (Cert.Spec.m2 x6) (Cert.Spec.m1 x7) j := by
  rw [val_main_v19_apply, val_main_v18_apply, val_main_v15_apply, val_main_v17_apply, val_main_v16_apply,
    Ideal.hostUnary_tanh_def, Ideal.addf_def]
  have eb : idx_main_v16 (idx_main_v17 (ix2 n j)) = ix1 j := by
    funext a; match a with | ⟨0, _⟩ => rfl
  have el : ∀ k : Fin 1024, lidx_main_v15 (ix2 n j) k = ix2 n k := fun k => by
    funext a; match a with | ⟨0, _⟩ => rfl | ⟨1, _⟩ => rfl
  have er : ∀ k : Fin 1024, ridx_main_v15 (ix2 n j) k = ix2 k j := fun k => by
    funext a; match a with | ⟨0, _⟩ => rfl | ⟨1, _⟩ => rfl
  rw [eb]
  unfold Cert.Spec.hidden Cert.Spec.affine
  refine congrArg Ideal.tanh (congrArg₂ (· + ·) ?_ rfl)
  refine Finset.sum_congr rfl fun k _ => ?_
  rw [el, er, hprev]

/-- The third layer, entry (n, j), from node n's row of the second. -/
theorem layer3_eq (n : Fin 4096) (j : Fin 512) (prev : Fin 1024 → EReal)
    (hprev : ∀ k : Fin 1024, val_main_v19 (F := Ideal) x0 x1 x2 x3 x4 x5 x6 x7 (ix2 n k) = prev k) :
    val_main_v24 (F := Ideal) x0 x1 x2 x3 x4 x5 x6 x7 x8 x9 (ix2 n j)
      = Cert.Spec.hidden prev (Cert.Spec.m2 x8) (Cert.Spec.m1 x9) j := by
  rw [val_main_v24_apply, val_main_v23_apply, val_main_v20_apply, val_main_v22_apply, val_main_v21_apply,
    Ideal.hostUnary_tanh_def, Ideal.addf_def]
  have eb : idx_main_v21 (idx_main_v22 (ix2 n j)) = ix1 j := by
    funext a; match a with | ⟨0, _⟩ => rfl
  have el : ∀ k : Fin 1024, lidx_main_v20 (ix2 n j) k = ix2 n k := fun k => by
    funext a; match a with | ⟨0, _⟩ => rfl | ⟨1, _⟩ => rfl
  have er : ∀ k : Fin 1024, ridx_main_v20 (ix2 n j) k = ix2 k j := fun k => by
    funext a; match a with | ⟨0, _⟩ => rfl | ⟨1, _⟩ => rfl
  rw [eb]
  unfold Cert.Spec.hidden Cert.Spec.affine
  refine congrArg Ideal.tanh (congrArg₂ (· + ·) ?_ rfl)
  refine Finset.sum_congr rfl fun k _ => ?_
  rw [el, er, hprev]

/-- The fourth layer, entry (n, j), from node n's row of the third. -/
theorem layer4_eq (n : Fin 4096) (j : Fin 256) (prev : Fin 512 → EReal)
    (hprev : ∀ k : Fin 512, val_main_v24 (F := Ideal) x0 x1 x2 x3 x4 x5 x6 x7 x8 x9 (ix2 n k) = prev k) :
    val_main_v29 (F := Ideal) x0 x1 x2 x3 x4 x5 x6 x7 x8 x9 x10 x11 (ix2 n j)
      = Cert.Spec.hidden prev (Cert.Spec.m2 x10) (Cert.Spec.m1 x11) j := by
  rw [val_main_v29_apply, val_main_v28_apply, val_main_v25_apply, val_main_v27_apply, val_main_v26_apply,
    Ideal.hostUnary_tanh_def, Ideal.addf_def]
  have eb : idx_main_v26 (idx_main_v27 (ix2 n j)) = ix1 j := by
    funext a; match a with | ⟨0, _⟩ => rfl
  have el : ∀ k : Fin 512, lidx_main_v25 (ix2 n j) k = ix2 n k := fun k => by
    funext a; match a with | ⟨0, _⟩ => rfl | ⟨1, _⟩ => rfl
  have er : ∀ k : Fin 512, ridx_main_v25 (ix2 n j) k = ix2 k j := fun k => by
    funext a; match a with | ⟨0, _⟩ => rfl | ⟨1, _⟩ => rfl
  rw [eb]
  unfold Cert.Spec.hidden Cert.Spec.affine
  refine congrArg Ideal.tanh (congrArg₂ (· + ·) ?_ rfl)
  refine Finset.sum_congr rfl fun k _ => ?_
  rw [el, er, hprev]

/-- The result at node n: the last layer's one entry through 1 / (1 + exp (-y)), which is the logistic function by its
    definition; the literal constant of the reference is one. -/
theorem out_eq (n : Fin 4096) :
    val_main_v39 (F := Ideal) x0 x1 x2 x3 x4 x5 x6 x7 x8 x9 x10 x11 x12 x13 (ix2 n 0)
      = Cert.Spec.out x0 x1 x2 x3 x4 x5 x6 x7 x8 x9 x10 x11 x12 x13 (ix2 n 0) := by
  rw [val_main_v39_apply, val_main_v38_apply, val_main_cst_0_apply, val_main_v37_apply, val_main_v36_apply,
    val_main_cst_apply, val_main_v35_apply, val_main_v34_apply, val_main_v33_apply, val_main_v30_apply,
    val_main_v32_apply, val_main_v31_apply,
    Ideal.hostDivf_def, Ideal.addf_def, Ideal.hostUnary_exp_def, Ideal.hostNegf_def, Ideal.negf_def, Ideal.addf_def,
    Ideal.ofBits_def, Ideal.ofBits_one_f32]
  have eb : idx_main_v31 (idx_main_v32 (ix2 n (0 : Fin 1))) = ix1 (0 : Fin 1) := by
    funext a; match a with | ⟨0, _⟩ => rfl
  have el : ∀ k : Fin 256, lidx_main_v30 (ix2 n (0 : Fin 1)) k = ix2 n k := fun k => by
    funext a; match a with | ⟨0, _⟩ => rfl | ⟨1, _⟩ => rfl
  have er : ∀ k : Fin 256, ridx_main_v30 (ix2 n (0 : Fin 1)) k = ix2 k (0 : Fin 1) := fun k => by
    funext a; match a with | ⟨0, _⟩ => rfl | ⟨1, _⟩ => rfl
  rw [eb]
  unfold Cert.Spec.out Cert.Spec.rowSplit Cert.Spec.tail Ideal.logistic Cert.Spec.affine
  refine congrArg (fun y : EReal => Ideal.div 1 (1 + Ideal.exp (-y))) (congrArg₂ (· + ·) ?_ rfl)
  refine Finset.sum_congr rfl fun k _ => ?_
  rw [el, er]
  refine congrArg (fun y : EReal => y * x12 (ix2 k (0 : Fin 1))) ?_
  exact layer4_eq x0 x1 x2 x3 x4 x5 x6 x7 x8 x9 x10 x11 n k _ fun k =>
    layer3_eq x0 x1 x2 x3 x4 x5 x6 x7 x8 x9 n k _ fun k =>
      layer2_eq x0 x1 x2 x3 x4 x5 x6 x7 n k _ fun k => layer1_eq x0 x1 x2 x3 x4 x5 n k

end Stages

/-- The reference's last stage, read entry by entry, is the specification's function of the fourteen arguments. -/
theorem result_eq (x0 : (⟨S4096x128, .f32⟩ : BufTy).Contents (Elt Ideal)) (x1 x2 : (⟨S16384x4096, .f32⟩ : BufTy).Contents (Elt Ideal))
    (x3 : (⟨S4096, .f32⟩ : BufTy).Contents (Elt Ideal)) (x4 : (⟨S384x1024, .f32⟩ : BufTy).Contents (Elt Ideal))
    (x5 : (⟨S1024, .f32⟩ : BufTy).Contents (Elt Ideal)) (x6 : (⟨S1024x1024, .f32⟩ : BufTy).Contents (Elt Ideal))
    (x7 : (⟨S1024, .f32⟩ : BufTy).Contents (Elt Ideal)) (x8 : (⟨S1024x512, .f32⟩ : BufTy).Contents (Elt Ideal))
    (x9 : (⟨S512, .f32⟩ : BufTy).Contents (Elt Ideal)) (x10 : (⟨S512x256, .f32⟩ : BufTy).Contents (Elt Ideal))
    (x11 : (⟨S256, .f32⟩ : BufTy).Contents (Elt Ideal)) (x12 : (⟨S256x1, .f32⟩ : BufTy).Contents (Elt Ideal))
    (x13 : (⟨S1, .f32⟩ : BufTy).Contents (Elt Ideal)) :
    val_main_v39 (F := Ideal) x0 x1 x2 x3 x4 x5 x6 x7 x8 x9 x10 x11 x12 x13
      = Cert.Spec.out x0 x1 x2 x3 x4 x5 x6 x7 x8 x9 x10 x11 x12 x13 := by
  funext i
  have hi : i = ix2 (⟨(i 0).val, (i 0).isLt⟩ : Fin 4096) (0 : Fin 1) := by
    funext a
    match a with
    | ⟨0, _⟩ => rfl
    | ⟨1, _⟩ => exact Fin.ext (by have := idx2_lt1 i; show (i 1).val = 0; omega)
  rw [hi]
  exact out_eq x0 x1 x2 x3 x4 x5 x6 x7 x8 x9 x10 x11 x12 x13 _

end Cert.ReferenceIdeal.RefValue

end
-- ==== Proof.lean ====
/-
  A graph network's edge classifier on 4096 nodes and 16384 edges, against its plain reference, over the extended reals.

  Both programs scale the node features `H` (4096 by 128) by the node weights `e`, aggregate them along the edges through the
  two 16384 by 4096 incidence matrices, `Ho = Riᵀ (Ro (e·H))` and `Hi = Roᵀ (Ri (e·H))`, and run a five-layer perceptron (four
  `tanh` layers and a logistic one) on each node's 384 numbers `Ho n, H n, Hi n`.

  The kernel does it in two grid programs. The first walks the edges in 64 tiles of 256: a tile's rows of `Ro` and `Ri` are
  multiplied into the scaled features and contracted back, transposed, into two 4096 by 128 accumulators that start at zero
  and are written back once, after the last tile. So an entry of `Ho` is a sum over the tiles of a sum over a tile's edges;
  the reference's is one sum over all edges. The second walks the nodes in 8 blocks of 512 and, instead of joining `Ho`,
  `H`, `Hi` into one 384-wide row, multiplies each against its own 128 rows of the first weight matrix and adds the three
  products; the reference sums over all 384 columns at once. Both differences are regroupings of finite sums, which
  addition of extended reals allows without any finiteness: the proof never opens the precondition. A change of float
  format is the identity here, a matrix product into a zero accumulator is the plain sum of products, and the kernel's
  logistic is by definition the reference's `1 / (1 + exp (−y))`.

  The specification (Proof/Spec.lean) states the common value as one function of the fourteen argument arrays. The kernel's
  run ends with its result array at that function (Proof/KernelValue.lean, over the two regions' values and the host's
  scaling); the reference's run ends at its composed term, which read entry by entry is the same function
  (Proof/RefValue.lean). The three frames are the programs' runs with the value dropped; the idealization changed no
  operation, so there is nothing to preserve.
-/
import proofs.«143709_j72344429134238_1_alg».proof.Defs
import proofs.«143709_j72344429134238_1_alg».proof.Proof.Gen.Kernel
import proofs.«143709_j72344429134238_1_alg».proof.Proof.Gen.Kernel.Skeleton
import proofs.«143709_j72344429134238_1_alg».proof.Proof.Gen.Kernel.Launch
import proofs.«143709_j72344429134238_1_alg».proof.Proof.Gen.Kernel.Points
import proofs.«143709_j72344429134238_1_alg».proof.Proof.Gen.Kernel.Frame
import proofs.«143709_j72344429134238_1_alg».proof.Proof.Gen.KernelIdeal
import proofs.«143709_j72344429134238_1_alg».proof.Proof.Gen.KernelIdeal.Skeleton
import proofs.«143709_j72344429134238_1_alg».proof.Proof.Gen.KernelIdeal.Launch
import proofs.«143709_j72344429134238_1_alg».proof.Proof.Gen.KernelIdeal.Points
import proofs.«143709_j72344429134238_1_alg».proof.Proof.Gen.KernelIdeal.Frame
import proofs.«143709_j72344429134238_1_alg».proof.Proof.Gen.ReferenceIdeal
import proofs.«143709_j72344429134238_1_alg».proof.Proof.Gen.Pre_finite_inputs
import proofs.«143709_j72344429134238_1_alg».proof.Proof.Gen.ReferenceIdeal.Run
import proofs.«143709_j72344429134238_1_alg».proof.Proof.Gen.ReferenceIdeal.Read
import proofs.«143709_j72344429134238_1_alg».proof.Proof.KernelValue
import proofs.«143709_j72344429134238_1_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_k : @Cert.frame_Kernel Cert.Kernel.Gen.facts Cert.Pre_finite_inputs.Gen.facts :=
  fun m ρ _ => Cert.Kernel.Gen.frame m ρ

/-- So does its reading over the extended reals. -/
theorem frame_ki : @Cert.frame_KernelIdeal Cert.KernelIdeal.Gen.facts Cert.Pre_finite_inputs.Gen.facts :=
  fun m ρ _ => Cert.KernelIdeal.Gen.frame m ρ

/-- The reference's run, its value dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both runs end at the specification's function of arguments that agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Spec.out (Cert.KernelIdeal.Named.a0 m c) (Cert.KernelIdeal.Named.a1 m c) (Cert.KernelIdeal.Named.a2 m c) (Cert.KernelIdeal.Named.a3 m c) (Cert.KernelIdeal.Named.a4 m c) (Cert.KernelIdeal.Named.a5 m c) (Cert.KernelIdeal.Named.a6 m c) (Cert.KernelIdeal.Named.a7 m c) (Cert.KernelIdeal.Named.a8 m c) (Cert.KernelIdeal.Named.a9 m c) (Cert.KernelIdeal.Named.a10 m c) (Cert.KernelIdeal.Named.a11 m c) (Cert.KernelIdeal.Named.a12 m c) (Cert.KernelIdeal.Named.a13 m c), Cert.KernelIdeal.Named.run m ρ, ?_⟩
  refine (θ_run Cert.ReferenceIdeal.defs _ _).mono (fun _ h c => ⟨?_, (h c).2⟩)
    (Cert.ReferenceIdeal.Value.run (F := Ideal) m' ρ')
  obtain ⟨e0, e1, e2, e3, e4, e5, e6, e7, e8, e9, e10, e11, e12, e13⟩ := hagree c
  rw [(h c).1, Cert.ReferenceIdeal.Read.val_main_v39_eq, Cert.ReferenceIdeal.RefValue.result_eq,
    e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
